-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x2 : Shape := ⟨2, ![1000000, 2]⟩
abbrev S1000000 : Shape := ⟨1, ![1000000]⟩
abbrev S6572x32 : Shape := ⟨2, ![6572, 32]⟩
abbrev S34x128 : Shape := ⟨2, ![34, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S1000000x2 : S_.BroadcastsInDim S1000000x2 (![] : Fin 0 → Fin S1000000x2.rank)
  reducesTo_S1000000x2_S_d0_1 : S1000000x2.ReducesTo [0, 1] S_
  h_S_ : 0 < S_.numel
  bcast_S_S1000000 : S_.BroadcastsInDim S1000000 (![] : Fin 0 → Fin S1000000.rank)
  reducesTo_S1000000_S_d0 : S1000000.ReducesTo [0] S_
  bcast_S_S6572x32 : S_.BroadcastsInDim S6572x32 (![] : Fin 0 → Fin S6572x32.rank)
  reducesTo_S6572x32_S_d0_1 : S6572x32.ReducesTo [0, 1] S_
  bcast_S_S34x128 : S_.BroadcastsInDim S34x128 (![] : Fin 0 → Fin S34x128.rank)
  reducesTo_S34x128_S_d0_1 : S34x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v47 : IVec S_ 1) (main_v50 : IVec S1000000 1) : IVec S_ 1 :=
  let main_c_19 : IVec S_ 1 := constantI S_ 1 1#1
  let main_v51 : IVec S_ 1 := (fun x v => Host.reduce IntOp.andi x v reducesTo_S1000000_S_d0 h_S_) main_v50 main_c_19
  let main_v52 : IVec S_ 1 := andi main_v47 main_v51
  main_v52

def fn_part2 {F : FTy → Type} [FloatOps F] (main_arg1 : FVec F S1000000 .f32) (main_arg7 : FVec F S128x1 .f32) (main_arg8 : FVec F S1 .f32) (main_v33 : IVec S_ 1) : IVec S_ 1 :=
  let main_v34 : FVec F S128x1 .f32 := Host.absf main_arg7
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_cst_16 : FVec F S_ .f32 := constant S_ .f32 0x00000000#32
  let main_v44 : FVec F S1000000 .f32 := broadcastInDim S1000000 ![] bcast_S_S1000000 main_cst_16
  let main_v45 : IVec S1000000 1 := cmpf .oge main_arg1 main_v44
  let main_c_17 : IVec S_ 1 := constantI S_ 1 1#1
  let main_v46 : IVec S_ 1 := (fun x v => Host.reduce IntOp.andi x v reducesTo_S1000000_S_d0 h_S_) main_v45 main_c_17
  let main_v47 : IVec S_ 1 := andi main_v43 main_v46
  let main_v48 : IVec S1000000 32 := fptosi 32 main_arg1
  let main_c_18 : IVec S_ 32 := constantI S_ 32 6571#32
  let main_v49 : IVec S1000000 32 := broadcastInDim S1000000 ![] bcast_S_S1000000 main_c_18
  let main_v50 : IVec S1000000 1 := cmpi .sle main_v48 main_v49
  fn_part3 (F := F) main_v47 main_v50

def fn_part1 {F : FTy → Type} [FloatOps F] (main_arg1 : FVec F S1000000 .f32) (main_arg4 : FVec F S128 .f32) (main_arg5 : FVec F S128x128 .f32) (main_arg6 : FVec F S128 .f32) (main_arg7 : FVec F S128x1 .f32) (main_arg8 : FVec F S1 .f32) (main_v13 : IVec S_ 1) (main_v16 : IVec S34x128 1) : IVec S_ 1 :=
  let main_c_5 : IVec S_ 1 := constantI S_ 1 1#1
  let main_v17 : IVec S_ 1 := (fun x v => Host.reduce IntOp.andi x v reducesTo_S34x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg7 main_arg8 main_v33

def fn {F : FTy → Type} [FloatOps F] (main_arg0 : FVec F S1000000x2 .f32) (main_arg1 : FVec F S1000000 .f32) (main_arg2 : FVec F S6572x32 .f32) (main_arg3 : FVec F S34x128 .f32) (main_arg4 : FVec F S128 .f32) (main_arg5 : FVec F S128x128 .f32) (main_arg6 : FVec F S128 .f32) (main_arg7 : FVec F S128x1 .f32) (main_arg8 : FVec F S1 .f32) : IVec S_ 1 :=
  let main_v0 : FVec F S1000000x2 .f32 := Host.absf main_arg0
  let main_cst : FVec F S_ .f32 := constant S_ .f32 0x7F800000#32
  let main_v1 : FVec F S1000000x2 .f32 := broadcastInDim S1000000x2 ![] bcast_S_S1000000x2 main_cst
  let main_v2 : IVec S1000000x2 1 := cmpf .olt main_v0 main_v1
  let main_c : IVec S_ 1 := constantI S_ 1 1#1
  let main_v3 : IVec S_ 1 := (fun x v => Host.reduce IntOp.andi x v reducesTo_S1000000x2_S_d0_1 h_S_) main_v2 main_c
  let main_v4 : FVec F S1000000 .f32 := Host.absf main_arg1
  let main_cst_0 : FVec F S_ .f32 := constant S_ .f32 0x7F800000#32
  let main_v5 : FVec F S1000000 .f32 := broadcastInDim S1000000 ![] bcast_S_S1000000 main_cst_0
  let main_v6 : IVec S1000000 1 := cmpf .olt main_v4 main_v5
  let main_c_1 : IVec S_ 1 := constantI S_ 1 1#1
  let main_v7 : IVec S_ 1 := (fun x v => Host.reduce IntOp.andi x v reducesTo_S1000000_S_d0 h_S_) main_v6 main_c_1
  let main_v8 : IVec S_ 1 := andi main_v3 main_v7
  let main_v9 : FVec F S6572x32 .f32 := Host.absf main_arg2
  let main_cst_2 : FVec F S_ .f32 := constant S_ .f32 0x7F800000#32
  let main_v10 : FVec F S6572x32 .f32 := broadcastInDim S6572x32 ![] bcast_S_S6572x32 main_cst_2
  let main_v11 : IVec S6572x32 1 := cmpf .olt main_v9 main_v10
  let main_c_3 : IVec S_ 1 := constantI S_ 1 1#1
  let main_v12 : IVec S_ 1 := (fun x v => Host.reduce IntOp.andi x v reducesTo_S6572x32_S_d0_1 h_S_) main_v11 main_c_3
  let main_v13 : IVec S_ 1 := andi main_v8 main_v12
  let main_v14 : FVec F S34x128 .f32 := Host.absf main_arg3
  let main_cst_4 : FVec F S_ .f32 := constant S_ .f32 0x7F800000#32
  let main_v15 : FVec F S34x128 .f32 := broadcastInDim S34x128 ![] bcast_S_S34x128 main_cst_4
  let main_v16 : IVec S34x128 1 := cmpf .olt main_v14 main_v15
  fn_part1 (F := F) main_arg1 main_arg4 main_arg5 main_arg6 main_arg7 main_arg8 main_v13 main_v16
-- ==== Kernel.lean ====
abbrev S1000000x2 : Shape := ⟨2, ![1000000, 2]⟩
abbrev S1000000 : Shape := ⟨1, ![1000000]⟩
abbrev S6572x32 : Shape := ⟨2, ![6572, 32]⟩
abbrev S34x128 : Shape := ⟨2, ![34, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩
abbrev S1000000x1 : Shape := ⟨2, ![1000000, 1]⟩
abbrev S1000000x32 : Shape := ⟨2, ![1000000, 32]⟩
abbrev S1000000x34 : Shape := ⟨2, ![1000000, 34]⟩
abbrev S1007616x34 : Shape := ⟨2, ![1007616, 34]⟩
abbrev S2x128 : Shape := ⟨2, ![2, 128]⟩
abbrev S32x128 : Shape := ⟨2, ![32, 128]⟩
abbrev S1x128 : Shape := ⟨2, ![1, 128]⟩
abbrev S1x1 : Shape := ⟨2, ![1, 1]⟩
abbrev S1007616x1 : Shape := ⟨2, ![1007616, 1]⟩
abbrev S8192x34 : Shape := ⟨2, ![8192, 34]⟩
abbrev S8192x1 : Shape := ⟨2, ![8192, 1]⟩
abbrev S8192x2 : Shape := ⟨2, ![8192, 2]⟩
abbrev S8192x32 : Shape := ⟨2, ![8192, 32]⟩
abbrev S8192x128 : Shape := ⟨2, ![8192, 128]⟩

abbrev nBuf : Space → Nat
  | .hbm => 60
  | .vmem => 11
  | .smem => 0
  | _ => 0

abbrev bufTy : (tb : Table) → Fin (tcTables nBuf tb) → BufTy
  | .hbm, ⟨0, _⟩ => ⟨S1000000x2, .f32⟩
  | .hbm, ⟨1, _⟩ => ⟨S1000000, .f32⟩
  | .hbm, ⟨2, _⟩ => ⟨S6572x32, .f32⟩
  | .hbm, ⟨3, _⟩ => ⟨S34x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S1000000, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S1000000, .i32⟩
  | .hbm, ⟨14, _⟩ => ⟨S1000000, .i32⟩
  | .hbm, ⟨15, _⟩ => ⟨S_, .i32⟩
  | .hbm, ⟨16, _⟩ => ⟨S1000000, .i32⟩
  | .hbm, ⟨17, _⟩ => ⟨S1000000, .i32⟩
  | .hbm, ⟨18, _⟩ => ⟨S_, .i32⟩
  | .hbm, ⟨19, _⟩ => ⟨S1000000, .i32⟩
  | .hbm, ⟨20, _⟩ => ⟨S1000000, .i32⟩
  | .hbm, ⟨21, _⟩ => ⟨S_, .i32⟩
  | .hbm, ⟨22, _⟩ => ⟨S1000000, .i32⟩
  | .hbm, ⟨23, _⟩ => ⟨S1000000, .i32⟩
  | .hbm, ⟨24, _⟩ => ⟨S1000000, .f32⟩
  | .hbm, ⟨25, _⟩ => ⟨S1000000, .f32⟩
  | .hbm, ⟨26, _⟩ => ⟨S1000000x1, .f32⟩
  | .hbm, ⟨27, _⟩ => ⟨S_, .i32⟩
  | .hbm, ⟨28, _⟩ => ⟨S1000000, .i32⟩
  | .hbm, ⟨29, _⟩ => ⟨S1000000, .i1⟩
  | .hbm, ⟨30, _⟩ => ⟨S_, .i32⟩
  | .hbm, ⟨31, _⟩ => ⟨S1000000, .i32⟩
  | .hbm, ⟨32, _⟩ => ⟨S1000000, .i32⟩
  | .hbm, ⟨33, _⟩ => ⟨S1000000, .i32⟩
  | .hbm, ⟨34, _⟩ => ⟨S1000000x1, .i32⟩
  | .hbm, ⟨35, _⟩ => ⟨S1000000x32, .f32⟩
  | .hbm, ⟨36, _⟩ => ⟨S_, .i32⟩
  | .hbm, ⟨37, _⟩ => ⟨S1000000, .i32⟩
  | .hbm, ⟨38, _⟩ => ⟨S1000000, .i1⟩
  | .hbm, ⟨39, _⟩ => ⟨S_, .i32⟩
  | .hbm, ⟨40, _⟩ => ⟨S1000000, .i32⟩
  | .hbm, ⟨41, _⟩ => ⟨S1000000, .i32⟩
  | .hbm, ⟨42, _⟩ => ⟨S1000000, .i32⟩
  | .hbm, ⟨43, _⟩ => ⟨S1000000x1, .i32⟩
  | .hbm, ⟨44, _⟩ => ⟨S1000000x32, .f32⟩
  | .hbm, ⟨45, _⟩ => ⟨S1000000x32, .f32⟩
  | .hbm, ⟨46, _⟩ => ⟨S1000000x32, .f32⟩
  | .hbm, ⟨47, _⟩ => ⟨S1000000x32, .f32⟩
  | .hbm, ⟨48, _⟩ => ⟨S1000000x32, .f32⟩
  | .hbm, ⟨49, _⟩ => ⟨S1000000x34, .f32⟩
  | .hbm, ⟨50, _⟩ => ⟨S_, .i32⟩
  | .hbm, ⟨51, _⟩ => ⟨S_, .f32⟩
  | .hbm, ⟨52, _⟩ => ⟨S1007616x34, .f32⟩
  | .hbm, ⟨53, _⟩ => ⟨S2x128, .f32⟩
  | .hbm, ⟨54, _⟩ => ⟨S32x128, .f32⟩
  | .hbm, ⟨55, _⟩ => ⟨S1x128, .f32⟩
  | .hbm, ⟨56, _⟩ => ⟨S1x128, .f32⟩
  | .hbm, ⟨57, _⟩ => ⟨S1x1, .f32⟩
  | .hbm, ⟨58, _⟩ => ⟨S1007616x1, .f32⟩
  | .hbm, ⟨59, _⟩ => ⟨S1000000x1, .f32⟩
  | .local _ .vmem, ⟨0, _⟩ => ⟨S8192x34, .f32⟩
  | .local _ .vmem, ⟨1, _⟩ => ⟨S8192x34, .f32⟩
  | .local _ .vmem, ⟨2, _⟩ => ⟨S2x128, .f32⟩
  | .local _ .vmem, ⟨3, _⟩ => ⟨S32x128, .f32⟩
  | .local _ .vmem, ⟨4, _⟩ => ⟨S1x128, .f32⟩
  | .local _ .vmem, ⟨5, _⟩ => ⟨S128x128, .f32⟩
  | .local _ .vmem, ⟨6, _⟩ => ⟨S1x128, .f32⟩
  | .local _ .vmem, ⟨7, _⟩ => ⟨S128x1, .f32⟩
  | .local _ .vmem, ⟨8, _⟩ => ⟨S1x1, .f32⟩
  | .local _ .vmem, ⟨9, _⟩ => ⟨S8192x1, .f32⟩
  | .local _ .vmem, ⟨10, _⟩ => ⟨S8192x1, .f32⟩
  | _, _ => ⟨S1000000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_c_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v1 : Ref sig .tc := ⟨.hbm, 17, rfl⟩
abbrev main_c_1 : Ref sig .tc := ⟨.hbm, 18, rfl⟩
abbrev main_v2 : Ref sig .tc := ⟨.hbm, 19, rfl⟩
abbrev main_v3 : Ref sig .tc := ⟨.hbm, 20, rfl⟩
abbrev main_c_2 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_c_3 : Ref sig .tc := ⟨.hbm, 27, rfl⟩
abbrev main_v9 : Ref sig .tc := ⟨.hbm, 28, rfl⟩
abbrev main_v10 : Ref sig .tc := ⟨.hbm, 29, rfl⟩
abbrev main_c_4 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c_5 : Ref sig .tc := ⟨.hbm, 36, rfl⟩
abbrev main_v16 : Ref sig .tc := ⟨.hbm, 37, rfl⟩
abbrev main_v17 : Ref sig .tc := ⟨.hbm, 38, rfl⟩
abbrev main_c_6 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_c_7 : Ref sig .tc := ⟨.hbm, 50, rfl⟩
abbrev main_call1_v0 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![123], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x34 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8192x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x32_0_1 : S1000000x1.BroadcastsInDim S1000000x32 (![0, 1] : Fin 2 → Fin S1000000x32.rank)
  concatenates_S1000000x2_S1000000x32_S1000000x34_d1 : Shape.Concatenates [S1000000x2, S1000000x32] S1000000x34 1
  pads_S1000000x34_S1007616x34_076160_000 : S1000000x34.Pads (![0, 0] : Fin 2 → Nat) ![7616, 0] ![0, 0] S1007616x34
  h_S_ : 0 < S_.numel
  slices_S34x128_S2x128_0_0 : S34x128.Slices ![0, 0] S2x128
  slices_S34x128_S32x128_2_0 : S34x128.Slices ![2, 0] S32x128
  shapeCasts_S128_S1x128 : S128.ShapeCasts S1x128
  shapeCasts_S1_S1x1 : S1.ShapeCasts S1x1
  inb_S8192x34_S8192x34_0_0 : ∀ a, (![0, 0] : Fin 2 → Nat) a + S8192x34.size a ≤ S8192x34.size a
  h_S8192x34 : 0 < S8192x34.numel
  shapeCasts_S8192x34_S8192x34 : S8192x34.ShapeCasts S8192x34
  slices_S8192x34_o0_0_S8192x2 : S8192x34.Slices ![0, 0] S8192x2
  slices_S8192x34_o0_2_S8192x32 : S8192x34.Slices ![0, 2] S8192x32
  inb_S2x128_S2x128_0_0 : ∀ a, (![0, 0] : Fin 2 → Nat) a + S2x128.size a ≤ S2x128.size a
  h_S2x128 : 0 < S2x128.numel
  shapeCasts_S2x128_S2x128 : S2x128.ShapeCasts S2x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  inb_S128x128_S128x128_0_0 : ∀ a, (![0, 0] : Fin 2 → Nat) a + S128x128.size a ≤ S128x128.size a
  h_S128x128 : 0 < S128x128.numel
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8192x1 : S1x1.Broadcasts S8192x1
  inb_S8192x1_S8192x1_0_0 : ∀ a, (![0, 0] : Fin 2 → Nat) a + S8192x1.size a ≤ S8192x1.size a
  h_S8192x1 : 0 < S8192x1.numel
  slices_S1007616x1_S1000000x1_0_0 : S1007616x1.Slices ![0, 0] S1000000x1
  gather_S6572x32_S1000000x1_S1000000x32_1_0_n_n_0_1_132_wf : GatherDims.WF S6572x32 S1000000x1 S1000000x32 [1] [0] [] [0] [] 1 ![1, 32]
  dot_S8192x2_S2x128_S8192x128_1_0_0_1_n_n_wf : DotDims.WF S8192x2 S2x128 S8192x128 [1] [0] [0] [1] [] []
  dot_S8192x32_S32x128_S8192x128_1_0_0_1_n_n_wf : DotDims.WF S8192x32 S32x128 S8192x128 [1] [0] [0] [1] [] []
  dot_S8192x128_S128x128_S8192x128_1_0_0_1_n_n_wf : DotDims.WF S8192x128 S128x128 S8192x128 [1] [0] [0] [1] [] []
  dot_S8192x128_S128x1_S8192x1_1_0_0_1_n_n_wf : DotDims.WF S8192x128 S128x1 S8192x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x34.size a ≤ S1007616x34.size a
  hwx0_0 : ∀ i : grid0.Coords, EltTy.bits .f32 = 32 ∨ (Rect.block (s := S1007616x34) S8192x34.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x128.size a ≤ S2x128.size a
  hwx0_1 : ∀ i : grid0.Coords, EltTy.bits .f32 = 32 ∨ (Rect.block (s := S2x128) S2x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S32x128.size a
  hwx0_2 : ∀ i : grid0.Coords, EltTy.bits .f32 = 32 ∨ (Rect.block (s := S32x128) S32x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x1.size a ≤ S128x1.size a
  hwx0_6 : ∀ i : grid0.Coords, EltTy.bits .f32 = 32 ∨ (Rect.block (s := S128x1) S128x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8192x1.size a ≤ S1007616x1.size a
  hwx0_8 : ∀ i : grid0.Coords, EltTy.bits .f32 = 32 ∨ (Rect.block (s := S1007616x1) S8192x1.size (cc0_transform_8 i) (hinb0_8 i)).WholeWords (EltTy.packing .f32)

variable [Facts₀]

def gather_S6572x32_S1000000x1_S1000000x32_1_0_n_n_0_1_132 : GatherDims S6572x32 S1000000x1 S1000000x32 where
  offsetDims := [1]
  collapsedSliceDims := [0]
  operandBatchingDims := []
  startIndicesBatchingDims := []
  startIndexMap := [0]
  indexVectorDim := 1
  sliceSizes := ![1, 32]
  wf := gather_S6572x32_S1000000x1_S1000000x32_1_0_n_n_0_1_132_wf
def dot_S8192x2_S2x128_S8192x128_1_0_0_1_n_n : DotDims S8192x2 S2x128 S8192x128 where
  lhsContracting := [1]
  rhsContracting := [0]
  lhsNonContracting := [0]
  rhsNonContracting := [1]
  lhsBatch := []
  rhsBatch := []
  wf := dot_S8192x2_S2x128_S8192x128_1_0_0_1_n_n_wf
def dot_S8192x32_S32x128_S8192x128_1_0_0_1_n_n : DotDims S8192x32 S32x128 S8192x128 where
  lhsContracting := [1]
  rhsContracting := [0]
  lhsNonContracting := [0]
  rhsNonContracting := [1]
  lhsBatch := []
  rhsBatch := []
  wf := dot_S8192x32_S32x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x1_S8192x1_1_0_0_1_n_n : DotDims S8192x128 S128x1 S8192x1 where
  lhsContracting := [1]
  rhsContracting := [0]
  lhsNonContracting := [0]
  rhsNonContracting := [1]
  lhsBatch := []
  rhsBatch := []
  wf := dot_S8192x128_S128x1_S8192x1_1_0_0_1_n_n_wf

abbrev win0_0 : Pipeline.Window sig grid0 :=
  Pipeline.Window.ofSpec (Memref.whole main_v28) S8192x34.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S2x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S32x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v32) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v33) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v34) S8192x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S1000000x2 : Shape := ⟨2, ![1000000, 2]⟩
abbrev S1000000 : Shape := ⟨1, ![1000000]⟩
abbrev S6572x32 : Shape := ⟨2, ![6572, 32]⟩
abbrev S34x128 : Shape := ⟨2, ![34, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩
abbrev S1000000x1 : Shape := ⟨2, ![1000000, 1]⟩
abbrev S1000000x32 : Shape := ⟨2, ![1000000, 32]⟩
abbrev S1000000x34 : Shape := ⟨2, ![1000000, 34]⟩
abbrev S1000000x128 : Shape := ⟨2, ![1000000, 128]⟩
abbrev S1x128 : Shape := ⟨2, ![1, 128]⟩
abbrev S1x1 : Shape := ⟨2, ![1, 1]⟩

abbrev nBuf : Space → Nat
  | .hbm => 78
  | .vmem => 0
  | .smem => 0
  | _ => 0

abbrev bufTy : (tb : Table) → Fin (tcTables nBuf tb) → BufTy
  | .hbm, ⟨0, _⟩ => ⟨S1000000x2, .f32⟩
  | .hbm, ⟨1, _⟩ => ⟨S1000000, .f32⟩
  | .hbm, ⟨2, _⟩ => ⟨S6572x32, .f32⟩
  | .hbm, ⟨3, _⟩ => ⟨S34x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S1000000, .i32⟩
  | .hbm, ⟨10, _⟩ => ⟨S_, .i32⟩
  | .hbm, ⟨11, _⟩ => ⟨S1000000, .i32⟩
  | .hbm, ⟨12, _⟩ => ⟨S1000000, .i32⟩
  | .hbm, ⟨13, _⟩ => ⟨S_, .i32⟩
  | .hbm, ⟨14, _⟩ => ⟨S1000000, .i32⟩
  | .hbm, ⟨15, _⟩ => ⟨S1000000, .i32⟩
  | .hbm, ⟨16, _⟩ => ⟨S1000000, .f32⟩
  | .hbm, ⟨17, _⟩ => ⟨S1000000, .f32⟩
  | .hbm, ⟨18, _⟩ => ⟨S1000000x1, .f32⟩
  | .hbm, ⟨19, _⟩ => ⟨S_, .i32⟩
  | .hbm, ⟨20, _⟩ => ⟨S1000000, .i32⟩
  | .hbm, ⟨21, _⟩ => ⟨S1000000, .i1⟩
  | .hbm, ⟨22, _⟩ => ⟨S_, .i32⟩
  | .hbm, ⟨23, _⟩ => ⟨S1000000, .i32⟩
  | .hbm, ⟨24, _⟩ => ⟨S1000000, .i32⟩
  | .hbm, ⟨25, _⟩ => ⟨S1000000, .i32⟩
  | .hbm, ⟨26, _⟩ => ⟨S1000000x1, .i32⟩
  | .hbm, ⟨27, _⟩ => ⟨S1000000x32, .f32⟩
  | .hbm, ⟨28, _⟩ => ⟨S_, .i32⟩
  | .hbm, ⟨29, _⟩ => ⟨S1000000, .i32⟩
  | .hbm, ⟨30, _⟩ => ⟨S1000000, .i1⟩
  | .hbm, ⟨31, _⟩ => ⟨S_, .i32⟩
  | .hbm, ⟨32, _⟩ => ⟨S1000000, .i32⟩
  | .hbm, ⟨33, _⟩ => ⟨S1000000, .i32⟩
  | .hbm, ⟨34, _⟩ => ⟨S1000000, .i32⟩
  | .hbm, ⟨35, _⟩ => ⟨S1000000x1, .i32⟩
  | .hbm, ⟨36, _⟩ => ⟨S1000000x32, .f32⟩
  | .hbm, ⟨37, _⟩ => ⟨S1000000x32, .f32⟩
  | .hbm, ⟨38, _⟩ => ⟨S1000000x32, .f32⟩
  | .hbm, ⟨39, _⟩ => ⟨S1000000x32, .f32⟩
  | .hbm, ⟨40, _⟩ => ⟨S1000000x32, .f32⟩
  | .hbm, ⟨41, _⟩ => ⟨S1000000x34, .f32⟩
  | .hbm, ⟨42, _⟩ => ⟨S1000000x128, .f32⟩
  | .hbm, ⟨43, _⟩ => ⟨S1x128, .f32⟩
  | .hbm, ⟨44, _⟩ => ⟨S1000000x128, .f32⟩
  | .hbm, ⟨45, _⟩ => ⟨S1000000x128, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S1000000x128, .f32⟩
  | .hbm, ⟨50, _⟩ => ⟨S1000000x128, .f32⟩
  | .hbm, ⟨51, _⟩ => ⟨S_, .f32⟩
  | .hbm, ⟨52, _⟩ => ⟨S1000000x128, .f32⟩
  | .hbm, ⟨53, _⟩ => ⟨S1000000x128, .f32⟩
  | .hbm, ⟨54, _⟩ => ⟨S1000000x128, .f32⟩
  | .hbm, ⟨55, _⟩ => ⟨S1x128, .f32⟩
  | .hbm, ⟨56, _⟩ => ⟨S1000000x128, .f32⟩
  | .hbm, ⟨57, _⟩ => ⟨S1000000x128, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S1000000x128, .f32⟩
  | .hbm, ⟨62, _⟩ => ⟨S1000000x128, .f32⟩
  | .hbm, ⟨63, _⟩ => ⟨S_, .f32⟩
  | .hbm, ⟨64, _⟩ => ⟨S1000000x128, .f32⟩
  | .hbm, ⟨65, _⟩ => ⟨S1000000x128, .f32⟩
  | .hbm, ⟨66, _⟩ => ⟨S1000000x1, .f32⟩
  | .hbm, ⟨67, _⟩ => ⟨S1x1, .f32⟩
  | .hbm, ⟨68, _⟩ => ⟨S1000000x1, .f32⟩
  | .hbm, ⟨69, _⟩ => ⟨S1000000x1, .f32⟩
  | .hbm, ⟨70, _⟩ => ⟨S1000000x1, .f32⟩
  | .hbm, ⟨71, _⟩ => ⟨S1000000x1, .f32⟩
  | .hbm, ⟨72, _⟩ => ⟨S_, .f32⟩
  | .hbm, ⟨73, _⟩ => ⟨S1000000x1, .f32⟩
  | .hbm, ⟨74, _⟩ => ⟨S1000000x1, .f32⟩
  | .hbm, ⟨75, _⟩ => ⟨S_, .f32⟩
  | .hbm, ⟨76, _⟩ => ⟨S1000000x1, .f32⟩
  | .hbm, ⟨77, _⟩ => ⟨S1000000x1, .f32⟩
  | _, _ => ⟨S1000000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_v8 : Ref sig .tc := ⟨.hbm, 20, rfl⟩
abbrev main_v9 : Ref sig .tc := ⟨.hbm, 21, rfl⟩
abbrev main_c_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_c_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst : Ref sig .tc := ⟨.hbm, 46, rfl⟩
abbrev main_cst_5 : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_6 : Ref sig .tc := ⟨.hbm, 58, rfl⟩
abbrev main_cst_7 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_8 : Ref sig .tc := ⟨.hbm, 72, rfl⟩
abbrev main_v43 : Ref sig .tc := ⟨.hbm, 73, rfl⟩
abbrev main_v44 : Ref sig .tc := ⟨.hbm, 74, rfl⟩
abbrev main_cst_9 : Ref sig .tc := ⟨.hbm, 75, rfl⟩
abbrev main_v45 : Ref sig .tc := ⟨.hbm, 76, rfl⟩
abbrev main_v46 : Ref sig .tc := ⟨.hbm, 77, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x32_0_1 : S1000000x1.BroadcastsInDim S1000000x32 (![0, 1] : Fin 2 → Fin S1000000x32.rank)
  concatenates_S1000000x2_S1000000x32_S1000000x34_d1 : Shape.Concatenates [S1000000x2, S1000000x32] S1000000x34 1
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  bcast_S_S1000000x128 : S_.BroadcastsInDim S1000000x128 (![] : Fin 0 → Fin S1000000x128.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  bcast_S_S1000000x1 : S_.BroadcastsInDim S1000000x1 (![] : Fin 0 → Fin S1000000x1.rank)
  gather_S6572x32_S1000000x1_S1000000x32_1_0_n_n_0_1_132_wf : GatherDims.WF S6572x32 S1000000x1 S1000000x32 [1] [0] [] [0] [] 1 ![1, 32]
  dot_S1000000x34_S34x128_S1000000x128_1_0_0_1_n_n_wf : DotDims.WF S1000000x34 S34x128 S1000000x128 [1] [0] [0] [1] [] []
  dot_S1000000x128_S128x128_S1000000x128_1_0_0_1_n_n_wf : DotDims.WF S1000000x128 S128x128 S1000000x128 [1] [0] [0] [1] [] []
  dot_S1000000x128_S128x1_S1000000x1_1_0_0_1_n_n_wf : DotDims.WF S1000000x128 S128x1 S1000000x1 [1] [0] [0] [1] [] []

variable [Facts₀]

def gather_S6572x32_S1000000x1_S1000000x32_1_0_n_n_0_1_132 : GatherDims S6572x32 S1000000x1 S1000000x32 where
  offsetDims := [1]
  collapsedSliceDims := [0]
  operandBatchingDims := []
  startIndicesBatchingDims := []
  startIndexMap := [0]
  indexVectorDim := 1
  sliceSizes := ![1, 32]
  wf := gather_S6572x32_S1000000x1_S1000000x32_1_0_n_n_0_1_132_wf
def dot_S1000000x34_S34x128_S1000000x128_1_0_0_1_n_n : DotDims S1000000x34 S34x128 S1000000x128 where
  lhsContracting := [1]
  rhsContracting := [0]
  lhsNonContracting := [0]
  rhsNonContracting := [1]
  lhsBatch := []
  rhsBatch := []
  wf := dot_S1000000x34_S34x128_S1000000x128_1_0_0_1_n_n_wf
def dot_S1000000x128_S128x128_S1000000x128_1_0_0_1_n_n : DotDims S1000000x128 S128x128 S1000000x128 where
  lhsContracting := [1]
  rhsContracting := [0]
  lhsNonContracting := [0]
  rhsNonContracting := [1]
  lhsBatch := []
  rhsBatch := []
  wf := dot_S1000000x128_S128x128_S1000000x128_1_0_0_1_n_n_wf
def dot_S1000000x128_S128x1_S1000000x1_1_0_0_1_n_n : DotDims S1000000x128 S128x1 S1000000x1 where
  lhsContracting := [1]
  rhsContracting := [0]
  lhsNonContracting := [0]
  rhsNonContracting := [1]
  lhsBatch := []
  rhsBatch := []
  wf := dot_S1000000x128_S128x1_S1000000x1_1_0_0_1_n_n_wf

class Facts : Prop extends Facts₀ where

variable [Facts]
-- ==== Proof.KerHost.lean ====
/-
  What the tiled program's region finds in its arrays.

  Before its one region the tiled program computes, on whole arrays: the frame index of every query (the rounded
  coordinate, clamped into the table's rows), the two table rows it interpolates between, the interpolated features,
  the 1000000 × 34 array of rows (coordinates, then features) and that array padded with zero rows to a whole number
  of tiles; and it cuts the first layer's weights into the two rows that meet the coordinates and the thirty-two that
  meet the features, and lays each bias out as a one-row matrix.

  `auxOf` is the array of rows as ONE function of an integer index vector: the operations, in the order both
  programs apply them, from the index to the rows. The tiled program applies it to the CLAMPED index
  (`clampedIdx`), the plain program to the unclamped one; nothing else differs before the layers.
-/
import proofs.«410066_j489626272140_4_alg».proof.Proof.Gen.KernelIdeal.Frame
import Idealize.ShloMosaic.Lib.StableHlo.Run

noncomputable section

namespace Cert.KernelIdeal.KerHost

open Cert.KernelIdeal Cert.KernelIdeal.Gen Idealize.ShloMosaic Idealize.ShloMosaic.TcCoe Idealize.SL.Sem

variable {F : FTy → Type} [FloatOps F]

/-- The frame index the tiled program uses: the rounded coordinate, clamped below by 0 and above by 6571. -/
def clampedIdx (e : FVec F S1000000 .f32) : IVec S1000000 32 :=
  minsi (broadcastInDim S1000000 ![] bcast_S_S1000000 (id (constantI S_ 32 6571#32)))
    (maxsi (broadcastInDim S1000000 ![] bcast_S_S1000000 (id (constantI S_ 32 0#32))) (fptosi 32 e))

/-- The next frame's index: one more, but not past the last row. -/
def nextIdx (iv : IVec S1000000 32) : IVec S1000000 32 :=
  minsi (addi iv (broadcastInDim S1000000 ![] bcast_S_S1000000 (constantI S_ 32 1#32)))
    (broadcastInDim S1000000 ![] bcast_S_S1000000 (constantI S_ 32 6571#32))

/-- The table's row for each index: a negative index counted from the table's end, then the row gathered. -/
def rowsAt (T : FVec F S6572x32 .f32) (iv : IVec S1000000 32) : FVec F S1000000x32 .f32 :=
  Host.gather gather_S6572x32_S1000000x1_S1000000x32_1_0_n_n_0_1_132 T
    (broadcastInDim S1000000x1 ![0] bcast_S1000000_S1000000x1_0
      (select (cmpi .slt iv (broadcastInDim S1000000 ![] bcast_S_S1000000 (constantI S_ 32 0#32)))
        (addi iv (broadcastInDim S1000000 ![] bcast_S_S1000000 (constantI S_ 32 6572#32))) iv))

/-- A row's thirty-four inputs: its two coordinates followed by its thirty-two features. -/
def rowsCat (x : FVec F S1000000x2 .f32) (em : FVec F S1000000x32 .f32) : FVec F S1000000x34 .f32 :=
  concatenate S1000000x34 1 [⟨S1000000x2, x⟩, ⟨S1000000x32, em⟩] concatenates_S1000000x2_S1000000x32_S1000000x34_d1

/-- The printed two-part concatenation is `rowsCat` of its parts. -/
theorem rowsCat_eq (x : FVec F S1000000x2 .f32) (em : FVec F S1000000x32 .f32) :
    concatenate S1000000x34 1 [⟨S1000000x2, x⟩, ⟨S1000000x32, em⟩] concatenates_S1000000x2_S1000000x32_S1000000x34_d1
      = rowsCat x em := rfl

/-- The rows of coordinates and interpolated features, from the coordinates `x`, the embedding coordinate `e`, the
    table `T` and the frame index `iv`: the frame's row plus the fractional part times the difference to the next. -/
def auxOf (x : FVec F S1000000x2 .f32) (e : FVec F S1000000 .f32) (T : FVec F S6572x32 .f32) (iv : IVec S1000000 32) :
    FVec F S1000000x34 .f32 :=
  rowsCat x
    (addf (rowsAt T iv)
      (mulf (subf (rowsAt T (nextIdx iv)) (rowsAt T iv))
        (broadcastInDim S1000000x32 ![0, 1] bcast_S1000000x1_S1000000x32_0_1
          (broadcastInDim S1000000x1 ![0] bcast_S1000000_S1000000x1_0 (subf e (sitofp .f32 iv))))))

variable (m : (ℓ : Loc nD τ sig) → Buf (Elt F) ℓ)

/-- Window 0's array: the rows, from the clamped index, padded below with 7616 rows of the value of integer zero. -/
theorem V_rows (c : Dev nD) :
    (V m c main_v28 : S1007616x34.Idx → Elt F .f32)
      = pad S1007616x34 ![0, 0] ![7616, 0] ![0, 0]
          (auxOf (m ((c : Thread nD τ).loc main_arg0)) (m ((c : Thread nD τ).loc main_arg1)) (m ((c : Thread nD τ).loc main_arg2))
            (clampedIdx (m ((c : Thread nD τ).loc main_arg1))))
          (sitofp .f32 (constantI S_ 32 0#32)) pads_S1000000x34_S1007616x34_076160_000 h_S_ := by
  dsimp only [V, V0]
  simp only [hostOps0, hostOps0_1, hostOps0_2, hostOps0_3, hostOps0_4, List.flatten_cons, List.flatten_nil, List.append_nil,
    List.cons_append, List.nil_append]
  dsimp only [StableHlo.TRef.unary, StableHlo.TRef.binary]
  -- each operation's result is its function of its operands' results, back to the launch contents; the two-part
  -- concatenation is read as `rowsCat` of its parts, each of which is then read the same way
  simp (disch := decide) only [StableHlo.after_cons, StableHlo.after_nil,
    StableHlo.nullary_result', StableHlo.unary_result', StableHlo.binary_result', StableHlo.ternary_result',
    StableHlo.reshape_result',
    StableHlo.nullary_result_ne', StableHlo.unary_result_ne', StableHlo.binary_result_ne', StableHlo.ternary_result_ne',
    StableHlo.reshape_result_ne', rowsCat_eq]
  rfl

/-- Window 1's array: the first two rows of the first layer's weights. -/
theorem V_Wa (c : Dev nD) :
    (V m c main_v29 : S2x128.Idx → Elt F .f32)
      = extractStridedSlice S2x128 ![0, 0] (m ((c : Thread nD τ).loc main_arg3)) slices_S34x128_S2x128_0_0 := by
  dsimp only [V, V0]
  simp only [hostOps0, hostOps0_1, hostOps0_2, hostOps0_3, hostOps0_4, List.flatten_cons, List.flatten_nil, List.append_nil,
    List.cons_append, List.nil_append]
  dsimp only [StableHlo.TRef.unary, StableHlo.TRef.binary]
  after_results_simp

/-- Window 2's array: the last thirty-two rows of the first layer's weights. -/
theorem V_Wb (c : Dev nD) :
    (V m c main_v30 : S32x128.Idx → Elt F .f32)
      = extractStridedSlice S32x128 ![2, 0] (m ((c : Thread nD τ).loc main_arg3)) slices_S34x128_S32x128_2_0 := by
  dsimp only [V, V0]
  simp only [hostOps0, hostOps0_1, hostOps0_2, hostOps0_3, hostOps0_4, List.flatten_cons, List.flatten_nil, List.append_nil,
    List.cons_append, List.nil_append]
  dsimp only [StableHlo.TRef.unary, StableHlo.TRef.binary]
  after_results_simp

/-- Window 3's array: the first bias as a one-row matrix. -/
theorem V_b0 (c : Dev nD) :
    (V m c main_v31 : S1x128.Idx → Elt F .f32)
      = shapeCast S1x128 (m ((c : Thread nD τ).loc main_arg4)) shapeCasts_S128_S1x128 := by
  dsimp only [V, V0]
  simp only [hostOps0, hostOps0_1, hostOps0_2, hostOps0_3, hostOps0_4, List.flatten_cons, List.flatten_nil, List.append_nil,
    List.cons_append, List.nil_append]
  dsimp only [StableHlo.TRef.unary, StableHlo.TRef.binary]
  after_results_simp
  rfl

/-- Window 5's array: the second bias as a one-row matrix. -/
theorem V_b1 (c : Dev nD) :
    (V m c main_v32 : S1x128.Idx → Elt F .f32)
      = shapeCast S1x128 (m ((c : Thread nD τ).loc main_arg6)) shapeCasts_S128_S1x128 := by
  dsimp only [V, V0]
  simp only [hostOps0, hostOps0_1, hostOps0_2, hostOps0_3, hostOps0_4, List.flatten_cons, List.flatten_nil, List.append_nil,
    List.cons_append, List.nil_append]
  dsimp only [StableHlo.TRef.unary, StableHlo.TRef.binary]
  after_results_simp
  rfl

/-- Window 7's array: the output bias as a 1 × 1 matrix. -/
theorem V_b2 (c : Dev nD) :
    (V m c main_v33 : S1x1.Idx → Elt F .f32)
      = shapeCast S1x1 (m ((c : Thread nD τ).loc main_arg8)) shapeCasts_S1_S1x1 := by
  dsimp only [V, V0]
  simp only [hostOps0, hostOps0_1, hostOps0_2, hostOps0_3, hostOps0_4, List.flatten_cons, List.flatten_nil, List.append_nil,
    List.cons_append, List.nil_append]
  dsimp only [StableHlo.TRef.unary, StableHlo.TRef.binary]
  after_results_simp
  rfl

end Cert.KernelIdeal.KerHost

end
-- ==== Proof.RowMlp.lean ====
/-
  One row of the network, on the extended reals.

  A query row is thirty-four numbers (two coordinates followed by thirty-two interpolated embedding
  features). Both programs send a row through the same three affine layers: a 34 → 128 layer and a
  128 → 128 layer, each followed by a clamp into [0, 1] spelt `min 1 (max 0 ·)`, and a 128 → 1 layer
  followed by the logistic function. `rowOut` is that function of one row and the six weight arrays.

  One program contracts all thirty-four inputs of the first layer in one sum; the other contracts the
  two coordinates and the thirty-two features separately and adds the results. `sum34_split` is the
  law between them: a finite sum splits at any position, which on the extended reals needs only that
  addition is associative and commutative, so no finiteness is used.
-/
import Idealize.ShloMosaic.PureOps.Ideal
import Idealize.ShloMosaic.PureOps.Ideal.Laws
import Idealize.ShloMosaic.Lib.ValueIdx

noncomputable section

open scoped BigOperators

namespace Cert.RowMlp

open Idealize.ShloMosaic Idealize.ShloMosaic.ValueIdx

/-- The lower clamp bound, kept as the word both programs print (the zero word). -/
abbrev lo : EReal := Ideal.ofBits .f32 0x00000000#32
/-- The upper clamp bound, kept as the word both programs print (the word of 1.0). -/
abbrev hi : EReal := Ideal.ofBits .f32 0x3F800000#32

/-- The upper bound's word denotes the real number one (the float decoder unfolded once, here). -/
theorem hi_eq_one : hi = 1 := by
  simp [Ideal.ofBits, Ideal.ieee, -EReal.coe_mul]; norm_num

/-- The clamp into [lo, hi], in the order both programs apply it: first the lower bound, then the upper. -/
def clamp (x : EReal) : EReal := min hi (max lo x)

/-- First layer: hidden unit `k` of a row `a` of thirty-four inputs. -/
def layer0 (W0 : (⟨2, ![34, 128]⟩ : Shape).Idx → EReal) (b0 : (⟨1, ![128]⟩ : Shape).Idx → EReal)
    (a : Fin 34 → EReal) (k : Fin 128) : EReal :=
  clamp ((∑ j : Fin 34, a j * W0 (ix2 j k)) + b0 (ix1 k))

/-- Second layer: hidden unit `k` from the first layer's 128 units. -/
def layer1 (W1 : (⟨2, ![128, 128]⟩ : Shape).Idx → EReal) (b1 : (⟨1, ![128]⟩ : Shape).Idx → EReal)
    (h : Fin 128 → EReal) (k : Fin 128) : EReal :=
  clamp ((∑ j : Fin 128, h j * W1 (ix2 j k)) + b1 (ix1 k))

/-- Output layer: the logistic function of the one affine output. -/
def head (W2 : (⟨2, ![128, 1]⟩ : Shape).Idx → EReal) (b2 : (⟨1, ![1]⟩ : Shape).Idx → EReal)
    (h : Fin 128 → EReal) : EReal :=
  Ideal.logistic ((∑ j : Fin 128, h j * W2 (ix2 j (0 : Fin 1))) + b2 (ix1 (0 : Fin 1)))

/-- The network's output for one row. -/
def rowOut (W0 : (⟨2, ![34, 128]⟩ : Shape).Idx → EReal) (b0 : (⟨1, ![128]⟩ : Shape).Idx → EReal)
    (W1 : (⟨2, ![128, 128]⟩ : Shape).Idx → EReal) (b1 : (⟨1, ![128]⟩ : Shape).Idx → EReal)
    (W2 : (⟨2, ![128, 1]⟩ : Shape).Idx → EReal) (b2 : (⟨1, ![1]⟩ : Shape).Idx → EReal)
    (a : Fin 34 → EReal) : EReal :=
  head W2 b2 (layer1 W1 b1 (layer0 W0 b0 a))

/-- A sum over thirty-four terms is the sum of its first two plus the sum of its last thirty-two. -/
theorem sum34_split (f : Fin 34 → EReal) :
    ∑ j : Fin 34, f j = (∑ j : Fin 2, f (Fin.castAdd 32 j)) + ∑ j : Fin 32, f (Fin.natAdd 2 j) :=
  Fin.sum_univ_add (a := 2) (b := 32) f

/-! ## The same network with the first layer's weights in two pieces

The tiled program holds the first layer's 34 × 128 weights as a 2 × 128 piece (the rows that meet the two
coordinates) and a 32 × 128 piece (the rows that meet the features), contracts each with its part of the row and
adds the two results; and it holds each bias as a one-row matrix. -/

/-- First layer, the coordinates and the features contracted separately. -/
def layer0K (Wa : (⟨2, ![2, 128]⟩ : Shape).Idx → EReal) (Wb : (⟨2, ![32, 128]⟩ : Shape).Idx → EReal)
    (b0 : (⟨2, ![1, 128]⟩ : Shape).Idx → EReal) (a : Fin 34 → EReal) (k : Fin 128) : EReal :=
  clamp (((∑ j : Fin 2, a (Fin.castAdd 32 j) * Wa (ix2 j k)) + ∑ j : Fin 32, a (Fin.natAdd 2 j) * Wb (ix2 j k))
    + b0 (ix2 (0 : Fin 1) k))

/-- Second layer, the bias a one-row matrix. -/
def layer1K (W1 : (⟨2, ![128, 128]⟩ : Shape).Idx → EReal) (b1 : (⟨2, ![1, 128]⟩ : Shape).Idx → EReal)
    (h : Fin 128 → EReal) (k : Fin 128) : EReal :=
  clamp ((∑ j : Fin 128, h j * W1 (ix2 j k)) + b1 (ix2 (0 : Fin 1) k))

/-- Output layer, the bias a 1 × 1 matrix. -/
def headK (W2 : (⟨2, ![128, 1]⟩ : Shape).Idx → EReal) (b2 : (⟨2, ![1, 1]⟩ : Shape).Idx → EReal)
    (h : Fin 128 → EReal) : EReal :=
  Ideal.logistic ((∑ j : Fin 128, h j * W2 (ix2 j (0 : Fin 1))) + b2 (ix2 (0 : Fin 1) (0 : Fin 1)))

/-- The network's output for one row, from the pieces. -/
def rowOutK (Wa : (⟨2, ![2, 128]⟩ : Shape).Idx → EReal) (Wb : (⟨2, ![32, 128]⟩ : Shape).Idx → EReal)
    (b0 : (⟨2, ![1, 128]⟩ : Shape).Idx → EReal) (W1 : (⟨2, ![128, 128]⟩ : Shape).Idx → EReal)
    (b1 : (⟨2, ![1, 128]⟩ : Shape).Idx → EReal) (W2 : (⟨2, ![128, 1]⟩ : Shape).Idx → EReal)
    (b2 : (⟨2, ![1, 1]⟩ : Shape).Idx → EReal) (a : Fin 34 → EReal) : EReal :=
  headK W2 b2 (layer1K W1 b1 (layer0K Wa Wb b0 a))

/-- When the two weight pieces are the first two and the last thirty-two rows of one 34 × 128 matrix, and the
    one-row biases hold the bias vectors, the network from the pieces is the network: the two partial sums are the
    whole sum split after its second term. -/
theorem rowOutK_eq (W0 : (⟨2, ![34, 128]⟩ : Shape).Idx → EReal) (b0 : (⟨1, ![128]⟩ : Shape).Idx → EReal)
    (W1 : (⟨2, ![128, 128]⟩ : Shape).Idx → EReal) (b1 : (⟨1, ![128]⟩ : Shape).Idx → EReal)
    (W2 : (⟨2, ![128, 1]⟩ : Shape).Idx → EReal) (b2 : (⟨1, ![1]⟩ : Shape).Idx → EReal)
    (Wa : (⟨2, ![2, 128]⟩ : Shape).Idx → EReal) (Wb : (⟨2, ![32, 128]⟩ : Shape).Idx → EReal)
    (b0r : (⟨2, ![1, 128]⟩ : Shape).Idx → EReal) (b1r : (⟨2, ![1, 128]⟩ : Shape).Idx → EReal)
    (b2r : (⟨2, ![1, 1]⟩ : Shape).Idx → EReal)
    (ha : ∀ (j : Fin 2) (k : Fin 128), Wa (ix2 j k) = W0 (ix2 (Fin.castAdd 32 j) k))
    (hb : ∀ (j : Fin 32) (k : Fin 128), Wb (ix2 j k) = W0 (ix2 (Fin.natAdd 2 j) k))
    (h0 : ∀ k : Fin 128, b0r (ix2 (0 : Fin 1) k) = b0 (ix1 k))
    (h1 : ∀ k : Fin 128, b1r (ix2 (0 : Fin 1) k) = b1 (ix1 k))
    (h2 : b2r (ix2 (0 : Fin 1) (0 : Fin 1)) = b2 (ix1 (0 : Fin 1))) (a : Fin 34 → EReal) :
    rowOutK Wa Wb b0r W1 b1r W2 b2r a = rowOut W0 b0 W1 b1 W2 b2 a := by
  have e0 : layer0K Wa Wb b0r a = layer0 W0 b0 a := funext fun k => by
    unfold layer0K layer0
    rw [sum34_split fun j => a j * W0 (ix2 j k), h0 k]
    simp only [ha, hb]
  have e1 : ∀ h, layer1K W1 b1r h = layer1 W1 b1 h := fun h => funext fun k => by
    unfold layer1K layer1
    rw [h1 k]
  unfold rowOutK rowOut headK head
  rw [e0, e1, h2]

end Cert.RowMlp

end
-- ==== Proof.LibContract.lean ====
/-
  A plain matrix product's contraction, as a sum over the shared axis.

  General, and independent of any program: for ANY dimension-number record between an M × K and a K × N operand
  whose six lists are those of a plain matrix product (contract the left operand's second axis with the right
  operand's first, batch nothing), the contraction at output entry (p, q) is the sum over k : Fin K of
  left (p, k) · right (k, q). The record's index maps decide each operand axis by list membership: a
  non-contracting axis reads the output index at its place among the output's axes (the left operand's first,
  then the right's), a contracting axis reads the contraction index. A certificate applies it to a printed record
  with every hypothesis closed by `rfl`.
-/
import Idealize.ShloMosaic.PureOps.Ideal
import Idealize.ShloMosaic.PureOps.Ideal.Laws
import Idealize.ShloMosaic.Lib.ValueIdx

noncomputable section

open scoped BigOperators

namespace Cert.LibContract

open Idealize.ShloMosaic Idealize.ShloMosaic.ValueIdx

/-- For dimension numbers that contract the left operand's second axis with the right operand's first and batch
    nothing (the six lists as a plain matrix product has them), the contraction at output index (p, q) is the sum over
    the shared axis of left (p, k) times right (k, q): a non-contracting axis of an operand reads the output index
    at its place among the output's axes (first the left operand's, then the right's), and the contracting axis
    reads the contraction index. -/
theorem contract_sum {M K N : Nat} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K)
    (lhs : (⟨2, ![M, K]⟩ : Shape).Idx → EReal) (rhs : (⟨2, ![K, N]⟩ : Shape).Idx → EReal) (p : Fin M) (q : Fin N) :
    ∑ k : d.contr.Idx, lhs (d.lhsIdx (ix2 p q) k) * rhs (d.rhsIdx (ix2 p q) k) = ∑ k : Fin K, lhs (ix2 p k) * rhs (ix2 k q) := by
  have hl0 : ∀ (i : (⟨2, ![M, N]⟩ : Shape).Idx) (c : d.contr.Idx), (d.lhsIdx i c 0).val = (i 0).val := fun i c => by
    have hnb : ¬ (0 : Fin (⟨2, ![M, K]⟩ : Shape).rank) ∈ d.lhsBatch := by rw [hlb]; exact List.not_mem_nil
    have hin : (0 : Fin (⟨2, ![M, K]⟩ : Shape).rank) ∈ d.lhsNonContracting := by rw [hln]; exact List.mem_singleton_self _
    unfold DotDims.lhsIdx
    rw [dif_neg hnb, dif_pos hin]
    exact congrArg (fun z => (i z).val) (Fin.ext (by
      show d.lhsBatch.length + d.lhsNonContracting.idxOf 0 = 0
      rw [hlb, hln]; rfl))
  have hr1 : ∀ (i : (⟨2, ![M, N]⟩ : Shape).Idx) (c : d.contr.Idx), (d.rhsIdx i c 1).val = (i 1).val := fun i c => by
    have hnb : ¬ (1 : Fin (⟨2, ![K, N]⟩ : Shape).rank) ∈ d.rhsBatch := by rw [hrb]; exact List.not_mem_nil
    have hin : (1 : Fin (⟨2, ![K, N]⟩ : Shape).rank) ∈ d.rhsNonContracting := by rw [hrn]; exact List.mem_singleton_self _
    unfold DotDims.rhsIdx
    rw [dif_neg hnb, dif_pos hin]
    exact congrArg (fun z => (i z).val) (Fin.ext (by
      show d.lhsBatch.length + d.lhsNonContracting.length + d.rhsNonContracting.idxOf 1 = 1
      rw [hlb, hln, hrn]; rfl))
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

end Cert.LibContract

end
-- ==== Proof.PayRow.lean ====
/-
  The tile body's arithmetic, one row at a time.

  At a grid point the body holds a tile of 8192 rows of thirty-four inputs and the six weight pieces, and stores a
  tile of 8192 outputs. Its arithmetic is three stages, each a whole-tile expression: the first hidden layer (the
  coordinates' product plus the features' product plus the bias row, clamped), the second hidden layer (a product
  plus a bias row, clamped), and the output (a product plus the bias, through the logistic function). A matrix
  product's entry (p, k) depends on row p of its left operand only, a bias row is repeated down the tile, and the
  clamp and the logistic function act entry by entry. So output p of the tile is the network from the pieces applied
  to row p of the tile: `pay_row`.
-/
import proofs.«410066_j489626272140_4_alg».proof.Proof.Gen.KernelIdeal.Skeleton
import proofs.«410066_j489626272140_4_alg».proof.Proof.RowMlp
import proofs.«410066_j489626272140_4_alg».proof.Proof.LibContract
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayRow

open Cert.KernelIdeal Cert.KernelIdeal.Gen Idealize.ShloMosaic Idealize.ShloMosaic.ValueIdx

/-! ## The four products, each into a zero accumulator, at an output entry

Each product's dimension numbers contract the left operand's second axis with the right operand's first and batch
nothing, so its entry (p, q) is the sum over the shared axis of left (p, k) times right (k, q). -/

/-- The coordinates against their two weight rows. -/
theorem mmA (lhs : FVec Ideal S8192x2 .f32) (rhs : FVec Ideal S2x128 .f32) (p : Fin 8192) (q : Fin 128) :
    matmul dot_S8192x2_S2x128_S8192x128_1_0_0_1_n_n none lhs rhs (constant S8192x128 .f32 0x00000000#32) (ix2 p q)
      = ∑ k : Fin 2, lhs (ix2 p k) * rhs (ix2 k q) :=
  (Ideal.matmul_constant_zero_apply _ _ _ _ _).trans
    (Cert.LibContract.contract_sum dot_S8192x2_S2x128_S8192x128_1_0_0_1_n_n rfl rfl rfl rfl rfl rfl rfl rfl lhs rhs p q)

/-- The features against their thirty-two weight rows. -/
theorem mmB (lhs : FVec Ideal S8192x32 .f32) (rhs : FVec Ideal S32x128 .f32) (p : Fin 8192) (q : Fin 128) :
    matmul dot_S8192x32_S32x128_S8192x128_1_0_0_1_n_n none lhs rhs (constant S8192x128 .f32 0x00000000#32) (ix2 p q)
      = ∑ k : Fin 32, lhs (ix2 p k) * rhs (ix2 k q) :=
  (Ideal.matmul_constant_zero_apply _ _ _ _ _).trans
    (Cert.LibContract.contract_sum dot_S8192x32_S32x128_S8192x128_1_0_0_1_n_n rfl rfl rfl rfl rfl rfl rfl rfl lhs rhs p q)

/-- The first hidden layer against the second layer's weights. -/
theorem mmC (lhs : FVec Ideal S8192x128 .f32) (rhs : FVec Ideal S128x128 .f32) (p : Fin 8192) (q : Fin 128) :
    matmul dot_S8192x128_S128x128_S8192x128_1_0_0_1_n_n none lhs rhs (constant S8192x128 .f32 0x00000000#32) (ix2 p q)
      = ∑ k : Fin 128, lhs (ix2 p k) * rhs (ix2 k q) :=
  (Ideal.matmul_constant_zero_apply _ _ _ _ _).trans
    (Cert.LibContract.contract_sum dot_S8192x128_S128x128_S8192x128_1_0_0_1_n_n rfl rfl rfl rfl rfl rfl rfl rfl lhs rhs p q)

/-- The second hidden layer against the output weights. -/
theorem mmD (lhs : FVec Ideal S8192x128 .f32) (rhs : FVec Ideal S128x1 .f32) (p : Fin 8192) (q : Fin 1) :
    matmul dot_S8192x128_S128x1_S8192x1_1_0_0_1_n_n none lhs rhs (constant S8192x1 .f32 0x00000000#32) (ix2 p q)
      = ∑ k : Fin 128, lhs (ix2 p k) * rhs (ix2 k q) :=
  (Ideal.matmul_constant_zero_apply _ _ _ _ _).trans
    (Cert.LibContract.contract_sum dot_S8192x128_S128x1_S8192x1_1_0_0_1_n_n rfl rfl rfl rfl rfl rfl rfl rfl lhs rhs p q)

/-! ## The three stages as whole-tile terms -/

/-- The first hidden layer over a tile. -/
def hid0 (x0 : FVec Ideal S8192x34 .f32) (x1 : FVec Ideal S2x128 .f32) (x2 : FVec Ideal S32x128 .f32) (x3 : FVec Ideal S1x128 .f32) :
    FVec Ideal S8192x128 .f32 :=
  minimumf (broadcast S8192x128 (Scalar.ofBits .f32 0x3F800000#32))
    (maximumf (broadcast S8192x128 (Scalar.ofBits .f32 0x00000000#32))
      (addf
        (addf
          (matmul dot_S8192x2_S2x128_S8192x128_1_0_0_1_n_n none
            (extractStridedSlice S8192x2 ![0, 0] (shapeCast S8192x34 x0 shapeCasts_S8192x34_S8192x34) slices_S8192x34_o0_0_S8192x2)
            (shapeCast S2x128 x1 shapeCasts_S2x128_S2x128) (constant S8192x128 .f32 0x00000000#32))
          (matmul dot_S8192x32_S32x128_S8192x128_1_0_0_1_n_n none
            (extractStridedSlice S8192x32 ![0, 2] (shapeCast S8192x34 x0 shapeCasts_S8192x34_S8192x34) slices_S8192x34_o0_2_S8192x32)
            (shapeCast S32x128 x2 shapeCasts_S32x128_S32x128) (constant S8192x128 .f32 0x00000000#32)))
        (broadcastTo S8192x128 (shapeCast S1x128 x3 shapeCasts_S1x128_S1x128) broadcasts_S1x128_S8192x128)))

/-- The second hidden layer over a tile. -/
def hid1 (h0 : FVec Ideal S8192x128 .f32) (x4 : FVec Ideal S128x128 .f32) (x5 : FVec Ideal S1x128 .f32) : FVec Ideal S8192x128 .f32 :=
  minimumf (broadcast S8192x128 (Scalar.ofBits .f32 0x3F800000#32))
    (maximumf (broadcast S8192x128 (Scalar.ofBits .f32 0x00000000#32))
      (addf (matmul dot_S8192x128_S128x128_S8192x128_1_0_0_1_n_n none h0 x4 (constant S8192x128 .f32 0x00000000#32))
        (broadcastTo S8192x128 (shapeCast S1x128 x5 shapeCasts_S1x128_S1x128) broadcasts_S1x128_S8192x128)))

/-- The output over a tile. -/
def outv (h1 : FVec Ideal S8192x128 .f32) (x6 : FVec Ideal S128x1 .f32) (x7 : FVec Ideal S1x1 .f32) : FVec Ideal S8192x1 .f32 :=
  logistic (addf (matmul dot_S8192x128_S128x1_S8192x1_1_0_0_1_n_n none h1 x6 (constant S8192x1 .f32 0x00000000#32))
    (broadcastTo S8192x1 (shapeCast S1x1 x7 shapeCasts_S1x1_S1x1) broadcasts_S1x1_S8192x1))

/-- The body's stored value is the three stages composed. -/
theorem pay_eq (x0 : Vec Ideal S8192x34 .f32) (x1 : Vec Ideal S2x128 .f32) (x2 : Vec Ideal S32x128 .f32) (x3 : Vec Ideal S1x128 .f32)
    (x4 : Vec Ideal S128x128 .f32) (x5 : Vec Ideal S1x128 .f32) (x6 : Vec Ideal S128x1 .f32) (x7 : Vec Ideal S1x1 .f32) :
    k0_pay1 (k0_pay2 x0 x1 x2 x3 x4 x5 x6 x7) = outv (hid1 (hid0 x0 x1 x2 x3) x4 x5) x6 x7 := rfl

/-! ## Each stage at a row -/

/-- The first hidden layer at (p, k) is the first layer, from the pieces, of row p of the tile. -/
theorem hid0_apply (x0 : FVec Ideal S8192x34 .f32) (x1 : FVec Ideal S2x128 .f32) (x2 : FVec Ideal S32x128 .f32) (x3 : FVec Ideal S1x128 .f32)
    (p : Fin 8192) (k : Fin 128) :
    hid0 x0 x1 x2 x3 (ix2 p k) = Cert.RowMlp.layer0K x1 x2 x3 (fun j => x0 (ix2 p j)) k := by
  unfold hid0
  simp only [minimumf_apply, maximumf_apply, addf_apply, broadcast_apply]
  rw [mmA, mmB, broadcastTo_1b_ab_apply, shapeCast_self]
  have eA : ∀ j : Fin 2, extractStridedSlice S8192x2 ![0, 0] x0 slices_S8192x34_o0_0_S8192x2 (ix2 p j)
      = x0 (ix2 p (Fin.castAdd 32 j)) := fun j =>
    slice2_axis1_apply 0 x0 slices_S8192x34_o0_0_S8192x2 p j (Fin.castAdd 32 j) (Nat.zero_add _).symm
  have eB : ∀ j : Fin 32, extractStridedSlice S8192x32 ![0, 2] x0 slices_S8192x34_o0_2_S8192x32 (ix2 p j)
      = x0 (ix2 p (Fin.natAdd 2 j)) := fun j =>
    slice2_axis1_apply 2 x0 slices_S8192x34_o0_2_S8192x32 p j (Fin.natAdd 2 j) rfl
  simp only [shapeCast_self]
  simp only [eA, eB]
  rfl

/-- The second hidden layer at (p, k) is the second layer of row p of the first. -/
theorem hid1_apply (h0 : FVec Ideal S8192x128 .f32) (x4 : FVec Ideal S128x128 .f32) (x5 : FVec Ideal S1x128 .f32) (p : Fin 8192) (k : Fin 128) :
    hid1 h0 x4 x5 (ix2 p k) = Cert.RowMlp.layer1K x4 x5 (fun j => h0 (ix2 p j)) k := by
  unfold hid1
  simp only [minimumf_apply, maximumf_apply, addf_apply, broadcast_apply]
  rw [mmC, broadcastTo_1b_ab_apply, shapeCast_self]
  rfl

/-- The output at (p, 0) is the output layer of row p of the second hidden layer. -/
theorem outv_apply (h1 : FVec Ideal S8192x128 .f32) (x6 : FVec Ideal S128x1 .f32) (x7 : FVec Ideal S1x1 .f32) (p : Fin 8192) :
    outv h1 x6 x7 (ix2 p (0 : Fin 1)) = Cert.RowMlp.headK x6 x7 (fun j => h1 (ix2 p j)) := by
  unfold outv
  show Ideal.logistic (_ + _) = _
  rw [mmD, broadcastTo_1b_ab_apply, shapeCast_self]
  rfl

/-- OUTPUT p OF THE TILE is the network, from the pieces, of row p of the tile. -/
theorem pay_row (x0 : Vec Ideal S8192x34 .f32) (x1 : Vec Ideal S2x128 .f32) (x2 : Vec Ideal S32x128 .f32) (x3 : Vec Ideal S1x128 .f32)
    (x4 : Vec Ideal S128x128 .f32) (x5 : Vec Ideal S1x128 .f32) (x6 : Vec Ideal S128x1 .f32) (x7 : Vec Ideal S1x1 .f32) (p : Fin 8192) :
    k0_pay1 (k0_pay2 x0 x1 x2 x3 x4 x5 x6 x7) (ix2 p (0 : Fin 1))
      = Cert.RowMlp.rowOutK x1 x2 x3 x4 x5 x6 x7 (fun j => x0 (ix2 p j)) := by
  rw [pay_eq, outv_apply]
  have e1 : (fun j : Fin 128 => hid1 (hid0 x0 x1 x2 x3) x4 x5 (ix2 p j))
      = Cert.RowMlp.layer1K x4 x5 (fun j => hid0 x0 x1 x2 x3 (ix2 p j)) := funext fun k => hid1_apply _ x4 x5 p k
  have e0 : (fun j : Fin 128 => hid0 x0 x1 x2 x3 (ix2 p j))
      = Cert.RowMlp.layer0K x1 x2 x3 (fun j => x0 (ix2 p j)) := funext fun k => hid0_apply x0 x1 x2 x3 p k
  rw [e1, e0]
  rfl

end Cert.KernelIdeal.PayRow

end
-- ==== Proof.KerValue.lean ====
/-
  What the tiled program's region leaves in its output array, and what the program returns.

  The region runs the tile body at 123 grid points. Point t stages rows 8192·t … 8192·t + 8191 of the padded rows
  array and the six weight pieces whole, and writes back rows 8192·t … 8192·t + 8191 of the 1007616 × 1 output.
  Since output p of a tile is the network applied to row p of the tile (`PayRow.pay_row`), what point t writes back
  is block t of ONE whole-array function `G8`: entry (i, 0) is the network, from the pieces, of row i of the padded
  rows array. The 123 blocks cover the output, so after the region the output array IS `G8` (`final8`).
  The program then keeps the first 1000000 entries (`tail_eq`). On those rows the padding is not met, the weight
  pieces are the rows of the first layer's weights they were cut from, and the one-row biases hold the bias vectors,
  so the returned entry (n, 0) is the network of row n of the unpadded rows array (`result_row`).
-/
import proofs.«410066_j489626272140_4_alg».proof.Proof.Gen.KernelIdeal.Frame
import proofs.«410066_j489626272140_4_alg».proof.Proof.KerHost
import proofs.«410066_j489626272140_4_alg».proof.Proof.PayRow
import proofs.«410066_j489626272140_4_alg».proof.Proof.RowMlp
import Idealize.ShloMosaic.Lib.Pipeline.Value
import Idealize.ShloMosaic.Lib.ValueIdx
import Idealize.ShloMosaic.Lib.ValueLayout
import Idealize.ShloMosaic.Lib.KernelVsHost
import Idealize.ShloMosaic.Lib.StableHlo.Run

noncomputable section

namespace Cert.KernelIdeal.KerValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The region's arrays, each at its literal type -/

/-- The padded rows array (window 0). -/
abbrev aRows (c : Dev nD) : S1007616x34.Idx → Elt Ideal .f32 := V m c main_v28
/-- The first layer's weights that meet the coordinates (window 1). -/
abbrev aWa (c : Dev nD) : S2x128.Idx → Elt Ideal .f32 := V m c main_v29
/-- The first layer's weights that meet the features (window 2). -/
abbrev aWb (c : Dev nD) : S32x128.Idx → Elt Ideal .f32 := V m c main_v30
/-- The first bias as a row (window 3). -/
abbrev aB0 (c : Dev nD) : S1x128.Idx → Elt Ideal .f32 := V m c main_v31
/-- The second layer's weights (window 4). -/
abbrev aW1 (c : Dev nD) : S128x128.Idx → Elt Ideal .f32 := V m c main_arg5
/-- The second bias as a row (window 5). -/
abbrev aB1 (c : Dev nD) : S1x128.Idx → Elt Ideal .f32 := V m c main_v32
/-- The output weights (window 6). -/
abbrev aW2 (c : Dev nD) : S128x1.Idx → Elt Ideal .f32 := V m c main_arg7
/-- The output bias as a 1 × 1 matrix (window 7). -/
abbrev aB2 (c : Dev nD) : S1x1.Idx → Elt Ideal .f32 := V m c main_v33

/-- THE OUTPUT ARRAY after the region: entry (i, 0) is the network, from the pieces, of row i of the padded rows. -/
def G8 (c : Dev nD) : S1007616x1.Idx → Elt Ideal .f32 := fun i =>
  Cert.RowMlp.rowOutK (aWa m c) (aWb m c) (aB0 m c) (aW1 m c) (aB1 m c) (aW2 m c) (aB2 m c)
    (fun j => aRows m c (ix2 (⟨(i 0).val, idx2_lt0 i⟩ : Fin 1007616) j))

/-! ## The printed index maps, decided once over the grid -/

theorem hz : (![0, 0] : Fin 2 → Nat) = fun _ => 0 := funext fun a => by fin_cases a <;> rfl

/-- The grid has 123 points. -/
theorem hN : cfg0.N = 123 := N_0

/-- The rows window and the output window move one block down per point; the six weight windows stay at their one
    block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- Every block row of the output is some point's. -/
theorem idx_onto8 : ∀ q0 : Fin 123, ∃ t : Fin cfg0.N, win0_8.index t (0 : Fin 2) = q0.val ∧ win0_8.index t (1 : Fin 2) = 0 :=
  (by decide +kernel : ∀ q0 : Fin 123, ∃ t : Fin grid0.N, win0_8.index t (0 : Fin 2) = q0.val ∧ win0_8.index t (1 : Fin 2) = 0)

/-- A point's rows lie inside the padded array. -/
theorem row_lt (t : Fin cfg0.N) (p : Fin 8192) : t.val * 8192 + p.val < 1007616 := by
  have ht : t.val < 123 := hN ▸ t.isLt
  have hp := p.isLt
  omega

/-! ## The blocks the body reads -/

/-- Row p of the rows window's block at point t is row 8192·t + p of the padded rows array. -/
theorem blk0 (c : Dev nD) (t : Fin cfg0.N) (p : Fin 8192) (j : Fin 34) :
    iblk m c 0 t (ix2 p j) = aRows m c (ix2 (⟨t.val * 8192 + p.val, row_lt t p⟩ : Fin 1007616) j) := by
  show V m c main_v28 (((cfg0.win 0).blk t).view.emb (ix2 p j)) = V m c main_v28 _
  refine congrArg (V m c main_v28) (funext fun a => Fin.ext ?_)
  obtain ⟨e0, e1, -⟩ := idx_facts t
  match a with
  | ⟨0, _⟩ => show win0_0.index t (0 : Fin 2) * 8192 + 1 * p.val = t.val * 8192 + p.val; rw [e0]; omega
  | ⟨1, _⟩ => show win0_0.index t (1 : Fin 2) * 34 + 1 * j.val = j.val; rw [e1]; omega

/-! Each weight window's one block is its whole array, at every point: its index map is constantly zero, so a block
    coordinate is its own array coordinate. -/

theorem blk1 (c : Dev nD) (t : Fin cfg0.N) : iblk m c 1 t = aWa m c := by
  funext y
  show V m c main_v29 (((cfg0.win 1).blk t).view.emb y) = V m c main_v29 y
  refine congrArg (V m c main_v29) (funext fun a => Fin.ext ?_)
  obtain ⟨-, -, e0, e1, -⟩ := idx_facts t
  match a with
  | ⟨0, _⟩ => show win0_1.index t (0 : Fin 2) * 2 + 1 * (y 0).val = (y 0).val; rw [e0]; omega
  | ⟨1, _⟩ => show win0_1.index t (1 : Fin 2) * 128 + 1 * (y 1).val = (y 1).val; rw [e1]; omega

theorem blk2 (c : Dev nD) (t : Fin cfg0.N) : iblk m c 2 t = aWb m c := by
  funext y
  show V m c main_v30 (((cfg0.win 2).blk t).view.emb y) = V m c main_v30 y
  refine congrArg (V m c main_v30) (funext fun a => Fin.ext ?_)
  obtain ⟨-, -, -, -, e0, e1, -⟩ := idx_facts t
  match a with
  | ⟨0, _⟩ => show win0_2.index t (0 : Fin 2) * 32 + 1 * (y 0).val = (y 0).val; rw [e0]; omega
  | ⟨1, _⟩ => show win0_2.index t (1 : Fin 2) * 128 + 1 * (y 1).val = (y 1).val; rw [e1]; omega

theorem blk3 (c : Dev nD) (t : Fin cfg0.N) : iblk m c 3 t = aB0 m c := by
  funext y
  show V m c main_v31 (((cfg0.win 3).blk t).view.emb y) = V m c main_v31 y
  refine congrArg (V m c main_v31) (funext fun a => Fin.ext ?_)
  obtain ⟨-, -, -, -, -, -, e0, e1, -⟩ := idx_facts t
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega

theorem blk4 (c : Dev nD) (t : Fin cfg0.N) : iblk m c 4 t = aW1 m c := by
  funext y
  show V m c main_arg5 (((cfg0.win 4).blk t).view.emb y) = V m c main_arg5 y
  refine congrArg (V m c main_arg5) (funext fun a => Fin.ext ?_)
  obtain ⟨-, -, -, -, -, -, -, -, e0, e1, -⟩ := idx_facts t
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

theorem blk5 (c : Dev nD) (t : Fin cfg0.N) : iblk m c 5 t = aB1 m c := by
  funext y
  show V m c main_v32 (((cfg0.win 5).blk t).view.emb y) = V m c main_v32 y
  refine congrArg (V m c main_v32) (funext fun a => Fin.ext ?_)
  obtain ⟨-, -, -, -, -, -, -, -, -, -, e0, e1, -⟩ := idx_facts t
  match a with
  | ⟨0, _⟩ => show win0_5.index t (0 : Fin 2) * 1 + 1 * (y 0).val = (y 0).val; rw [e0]; omega
  | ⟨1, _⟩ => show win0_5.index t (1 : Fin 2) * 128 + 1 * (y 1).val = (y 1).val; rw [e1]; omega

theorem blk6 (c : Dev nD) (t : Fin cfg0.N) : iblk m c 6 t = aW2 m c := by
  funext y
  show V m c main_arg7 (((cfg0.win 6).blk t).view.emb y) = V m c main_arg7 y
  refine congrArg (V m c main_arg7) (funext fun a => Fin.ext ?_)
  obtain ⟨-, -, -, -, -, -, -, -, -, -, -, -, e0, e1, -⟩ := idx_facts t
  match a with
  | ⟨0, _⟩ => show win0_6.index t (0 : Fin 2) * 128 + 1 * (y 0).val = (y 0).val; rw [e0]; omega
  | ⟨1, _⟩ => show win0_6.index t (1 : Fin 2) * 1 + 1 * (y 1).val = (y 1).val; rw [e1]; omega

theorem blk7 (c : Dev nD) (t : Fin cfg0.N) : iblk m c 7 t = aB2 m c := by
  funext y
  show V m c main_v33 (((cfg0.win 7).blk t).view.emb y) = V m c main_v33 y
  refine congrArg (V m c main_v33) (funext fun a => Fin.ext ?_)
  obtain ⟨-, -, -, -, -, -, -, -, -, -, -, -, -, -, e0, e1, -⟩ := idx_facts t
  match a with
  | ⟨0, _⟩ => show win0_7.index t (0 : Fin 2) * 1 + 1 * (y 0).val = (y 0).val; rw [e0]; omega
  | ⟨1, _⟩ => show win0_7.index t (1 : Fin 2) * 1 + 1 * (y 1).val = (y 1).val; rw [e1]; omega

/-- Entry p of the output window's block at point t sits at row 8192·t + p of the output array. -/
theorem emb8 (t : Fin cfg0.N) (p : Fin 8192) :
    ((cfg0.win 8).blk t).view.emb (ix2 p (0 : Fin 1)) = ix2 (⟨t.val * 8192 + p.val, row_lt t p⟩ : Fin 1007616) (0 : Fin 1) := by
  refine funext fun a => Fin.ext ?_
  obtain ⟨-, -, -, -, -, -, -, -, -, -, -, -, -, -, -, -, e0, e1⟩ := idx_facts t
  match a with
  | ⟨0, _⟩ => show win0_8.index t (0 : Fin 2) * 8192 + 1 * p.val = t.val * 8192 + p.val; rw [e0]; omega
  | ⟨1, _⟩ => show win0_8.index t (1 : Fin 2) * 1 + 1 * (0 : Fin 1).val = (0 : Fin 1).val; rw [e1]; simp

/-! ## What a point writes back, the cover, the array after the region -/

/-- WHAT POINT t WRITES BACK is block t of `G8`. -/
theorem flushed8_eq (c : Dev nD) (t : Fin cfg0.N) :
    (dats m 0 c).flushed 8 t = ((cfg0.win 8).blk t).view.read (Elt Ideal) (G8 m c) := by
  show (cfg0.win 8).cut (grid0.coords t) ((dats m 0 c).after 8 t) = _
  rw [after0_8]
  unfold out0_8
  rw [View.canon_unit_zero hz]
  simp only [View.ld_unit_zero (S := S8192x34) hz, View.ld_unit_zero (S := S2x128) hz, View.ld_unit_zero (S := S32x128) hz,
    View.ld_unit_zero (S := S1x128) hz, View.ld_unit_zero (S := S128x128) hz, View.ld_unit_zero (S := S128x1) hz,
    View.ld_unit_zero (S := S1x1) hz]
  funext (j : S8192x1.Idx)
  obtain ⟨p, q, rfl⟩ : ∃ (p : Fin 8192) (q : Fin 1), j = ix2 p q := ⟨j 0, j 1, eq_ix2 (n0 := 8192) (n1 := 1) j⟩
  obtain rfl : q = 0 := Subsingleton.elim _ _
  show k0_pay1 (k0_pay2 (iblk m c 0 t) (iblk m c 1 t) (iblk m c 2 t) (iblk m c 3 t) (iblk m c 4 t) (iblk m c 5 t) (iblk m c 6 t) (iblk m c 7 t))
      (ix2 p (0 : Fin 1)) = G8 m c (((cfg0.win 8).blk t).view.emb (ix2 p (0 : Fin 1)))
  rw [emb8 t p]
  refine (Cert.KernelIdeal.PayRow.pay_row (iblk m c 0 t) (iblk m c 1 t) (iblk m c 2 t) (iblk m c 3 t) (iblk m c 4 t) (iblk m c 5 t)
    (iblk m c 6 t) (iblk m c 7 t) p).trans ?_
  rw [blk1, blk2, blk3, blk4, blk5, blk6, blk7]
  unfold G8
  refine congrArg (Cert.RowMlp.rowOutK (aWa m c) (aWb m c) (aB0 m c) (aW1 m c) (aB1 m c) (aW2 m c) (aB2 m c)) (funext fun j => ?_)
  exact blk0 m c t p j

/-- An index of the output array is in point t's block iff each coordinate is in the block's range on its axis. -/
theorem mem_blk8 (t : Fin cfg0.N) (i : S1007616x1.Idx) :
    i ∈ ((cfg0.win 8).blk t).view.set ↔ ∀ a : Fin 2, win0_8.index t a * S8192x1.size a ≤ (i a).val ∧ (i a).val < win0_8.index t a * S8192x1.size a + S8192x1.size a := by
  show i ∈ ((View.whole main_v34).slice (win0_8.rect t)).set ↔ _
  rw [View.set_slice_whole, Rect.mem_set_unit]
  exact Iff.rfl

/-- Every index of the output array is in some point's block: row i is in block i / 8192. -/
theorem cover8 (i : S1007616x1.Idx) : ∃ t : Fin cfg0.N, (cfg0.win 8).flush t = true ∧ i ∈ ((cfg0.win 8).blk t).view.set := by
  have hi0 : (i 0).val < 1007616 := idx2_lt0 i
  have hi1 : (i 1).val < 1 := idx2_lt1 i
  obtain ⟨t, q0, q1⟩ := idx_onto8 ⟨(i 0).val / 8192, by omega⟩
  have q0' : win0_8.index t (0 : Fin 2) = (i 0).val / 8192 := q0
  refine ⟨t, flush0_8 t, ?_⟩
  rw [mem_blk8]
  intro a
  match a with
  | ⟨0, _⟩ => show win0_8.index t (0 : Fin 2) * 8192 ≤ (i 0).val ∧ (i 0).val < win0_8.index t (0 : Fin 2) * 8192 + 8192; rw [q0']; omega
  | ⟨1, _⟩ => show win0_8.index t (1 : Fin 2) * 1 ≤ (i 1).val ∧ (i 1).val < win0_8.index t (1 : Fin 2) * 1 + 1; rw [q1]; omega

/-- THE OUTPUT ARRAY after the region is `G8`. -/
theorem final8 (c : Dev nD) : (dats m 0 c).arrAt 8 cfg0.N = G8 m c :=
  (dats m 0 c).arrAt_eq_of_cover 8 (G8 m c) (fun t _ => flushed8_eq m c t) (cover8)

/-! ## The program's result -/

/-- After the region the program keeps the first 1000000 entries of the output array. -/
theorem tail_eq (c : Dev nD) :
    (Pipeline.afterTail₀ cfgs (dats m) 0 (V0 m) [hostOps1] c main_v35 : S1000000x1.Idx → Elt Ideal .f32)
      = extractStridedSlice S1000000x1 ![0, 0] (G8 m c) slices_S1007616x1_S1000000x1_0_0 := by
  unfold Pipeline.afterTail₀
  show StableHlo.after hostOps1 _ (Proc.devRef .tc main_v35) = _
  after_results
  exact congrArg (fun A : S1007616x1.Idx → Elt Ideal .f32 => extractStridedSlice S1000000x1 ![0, 0] A slices_S1007616x1_S1000000x1_0_0)
    ((Pipeline.withArrays_arr spec0 launch0.win.arr_inj c (V0 m c) (fun w => (dats m 0 c).arrAt w cfg0.N) 8).trans (final8 m c))

/-- A row below 1000000 of the padded rows array is that row of the rows array: the padding lies below it. -/
theorem rows_unpadded (c : Dev nD) (n : Fin 1000000) (hn : n.val < 1007616) (j : Fin 34) :
    aRows m c (ix2 (⟨n.val, hn⟩ : Fin 1007616) j)
      = KerHost.auxOf (F := Ideal) (m ((c : Thread nD τ).loc main_arg0)) (m ((c : Thread nD τ).loc main_arg1)) (m ((c : Thread nD τ).loc main_arg2)) (KerHost.clampedIdx (F := Ideal) (m ((c : Thread nD τ).loc main_arg1))) (ix2 n j) := by
  show (V m c main_v28 : S1007616x34.Idx → Elt Ideal .f32) _ = _
  rw [KerHost.V_rows]
  refine pad_apply_of_inside _ _ _ _ _ pads_S1000000x34_S1007616x34_076160_000 h_S_ _ (ix2 n j) fun a => ?_
  match a with
  | ⟨0, _⟩ => show n.val = 0 + n.val * (0 + 1); omega
  | ⟨1, _⟩ => show j.val = 0 + j.val * (0 + 1); omega

/-- THE RESULT at (n, 0): the network of row n of the rows array built from the clamped frame index. The two weight
    pieces are the first two and the last thirty-two rows of the first layer's weights, and the one-row biases hold the
    bias vectors, so the network from the pieces is the network. -/
theorem result_row (c : Dev nD) (n : Fin 1000000) :
    (Pipeline.afterTail₀ cfgs (dats m) 0 (V0 m) [hostOps1] c main_v35 : S1000000x1.Idx → Elt Ideal .f32) (ix2 n (0 : Fin 1))
      = Cert.RowMlp.rowOut (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
          (fun j => KerHost.auxOf (F := Ideal) (m ((c : Thread nD τ).loc main_arg0)) (m ((c : Thread nD τ).loc main_arg1)) (m ((c : Thread nD τ).loc main_arg2)) (KerHost.clampedIdx (F := Ideal) (m ((c : Thread nD τ).loc main_arg1))) (ix2 n j)) := by
  have hn : n.val < 1007616 := by have := n.isLt; omega
  rw [tail_eq]
  rw [slice2_axis0_apply 0 (G8 m c) slices_S1007616x1_S1000000x1_0_0 n (0 : Fin 1) (⟨n.val, hn⟩ : Fin 1007616) (Nat.zero_add _).symm]
  -- the weight pieces and bias rows, as rows and entries of the program's arguments
  have ha : ∀ (j : Fin 2) (k : Fin 128), aWa m c (ix2 j k) = (m ((c : Thread nD τ).loc main_arg3)) (ix2 (Fin.castAdd 32 j) k) := fun j k => by
    show (V m c main_v29 : S2x128.Idx → Elt Ideal .f32) _ = _
    rw [KerHost.V_Wa]
    exact slice2_axis0_apply 0 _ slices_S34x128_S2x128_0_0 j k (Fin.castAdd 32 j) (Nat.zero_add _).symm
  have hb : ∀ (j : Fin 32) (k : Fin 128), aWb m c (ix2 j k) = (m ((c : Thread nD τ).loc main_arg3)) (ix2 (Fin.natAdd 2 j) k) := fun j k => by
    show (V m c main_v30 : S32x128.Idx → Elt Ideal .f32) _ = _
    rw [KerHost.V_Wb]
    exact slice2_axis0_apply 2 _ slices_S34x128_S32x128_2_0 j k (Fin.natAdd 2 j) rfl
  have h0 : ∀ k : Fin 128, aB0 m c (ix2 (0 : Fin 1) k) = (m ((c : Thread nD τ).loc main_arg4)) (ix1 k) := fun k => by
    show (V m c main_v31 : S1x128.Idx → Elt Ideal .f32) _ = _
    rw [KerHost.V_b0]
    exact shapeCast_a_1a_apply _ shapeCasts_S128_S1x128 (0 : Fin 1) k
  have h1 : ∀ k : Fin 128, aB1 m c (ix2 (0 : Fin 1) k) = (m ((c : Thread nD τ).loc main_arg6)) (ix1 k) := fun k => by
    show (V m c main_v32 : S1x128.Idx → Elt Ideal .f32) _ = _
    rw [KerHost.V_b1]
    exact shapeCast_a_1a_apply _ shapeCasts_S128_S1x128 (0 : Fin 1) k
  have h2 : aB2 m c (ix2 (0 : Fin 1) (0 : Fin 1)) = (m ((c : Thread nD τ).loc main_arg8)) (ix1 (0 : Fin 1)) := by
    show (V m c main_v33 : S1x1.Idx → Elt Ideal .f32) _ = _
    rw [KerHost.V_b2]
    exact shapeCast_a_1a_apply _ shapeCasts_S1_S1x1 (0 : Fin 1) (0 : Fin 1)
  have hW1 : aW1 m c = (m ((c : Thread nD τ).loc main_arg5)) := V_main_arg5 m c
  have hW2 : aW2 m c = (m ((c : Thread nD τ).loc main_arg7)) := V_main_arg7 m c
  have hrow : (fun j : Fin 34 => aRows m c (ix2 (⟨n.val, hn⟩ : Fin 1007616) j))
      = fun j => KerHost.auxOf (F := Ideal) (m ((c : Thread nD τ).loc main_arg0)) (m ((c : Thread nD τ).loc main_arg1)) (m ((c : Thread nD τ).loc main_arg2)) (KerHost.clampedIdx (F := Ideal) (m ((c : Thread nD τ).loc main_arg1))) (ix2 n j) :=
    funext fun j => rows_unpadded m c n hn j
  show Cert.RowMlp.rowOutK (aWa m c) (aWb m c) (aB0 m c) (aW1 m c) (aB1 m c) (aW2 m c) (aB2 m c)
      (fun j : Fin 34 => aRows m c (ix2 (⟨n.val, hn⟩ : Fin 1007616) j)) = _
  rw [hrow, hW1, hW2]
  exact Cert.RowMlp.rowOutK_eq (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (aWa m c) (aWb m c) (aB0 m c) (aB1 m c) (aB2 m c)
    ha hb h0 h1 h2 _

end Cert.KernelIdeal.KerValue

end
-- ==== Proof.RefRow.lean ====
/-
  The plain program, one row at a time.

  The plain program forms the 1000000 × 34 array `aux` (each query's two coordinates followed by its thirty-two
  interpolated features) and sends it whole through the three layers. Read at row `n`, each stage depends on row
  `n` of `aux` only: a matrix product's entry (n, k) sums over row n of its left operand, a bias is added
  column by column, and the clamp and the logistic function act entry by entry. So the first hidden layer at
  (n, k) is `layer0` of row n, the second is `layer1` of that, and the result at (n, 0) is `rowOut` of row n.
  `aux` itself is never opened here.
-/
import proofs.«410066_j489626272140_4_alg».proof.Proof.Gen.ReferenceIdeal.Read
import proofs.«410066_j489626272140_4_alg».proof.Proof.RowMlp
import Idealize.ShloMosaic.Lib.ValueIdx

noncomputable section

open scoped BigOperators

namespace Cert.ReferenceIdeal.RefRow

open Cert.ReferenceIdeal Cert.ReferenceIdeal.Read Idealize.ShloMosaic Idealize.ShloMosaic.ValueIdx

variable (x0 : FVec Ideal S1000000x2 .f32) (x1 : FVec Ideal S1000000 .f32) (x2 : FVec Ideal S6572x32 .f32) (x3 : FVec Ideal S34x128 .f32) (x4 : FVec Ideal S128 .f32) (x5 : FVec Ideal S128x128 .f32) (x6 : FVec Ideal S128 .f32) (x7 : FVec Ideal S128x1 .f32) (x8 : FVec Ideal S1 .f32)

/-- Row `n` of the array of coordinates and interpolated features. -/
abbrev row (n : Fin 1000000) : Fin 34 → EReal := fun j => val_main_v26 (F := Ideal) x0 x1 x2 (ix2 n j)

/-- The first hidden layer at (n, k) is the first layer of row n. -/
theorem hidden0 (n : Fin 1000000) (k : Fin 128) :
    val_main_v31 (F := Ideal) x0 x1 x2 x3 x4 (ix2 n k) = Cert.RowMlp.layer0 x3 x4 (row x0 x1 x2 n) k := by
  rw [val_main_v31_apply, val_main_call0_v4_apply, val_main_call0_v3_apply, val_main_cst_5_apply, val_main_call0_v2_apply,
    val_main_call0_v1_apply, val_main_call0_v0_apply, val_main_cst_apply, val_main_v30_apply, val_main_v27_apply,
    val_main_v29_apply, val_main_v28_apply]
  have e1 : ∀ k' : Fin 34, lidx_main_v27 (ix2 n k) k' = ix2 n k' := fun k' => funext fun a => Fin.ext (by
    match a with | ⟨0, _⟩ => rfl | ⟨1, _⟩ => rfl)
  have e2 : ∀ k' : Fin 34, ridx_main_v27 (ix2 n k) k' = ix2 k' k := fun k' => funext fun a => Fin.ext (by
    match a with | ⟨0, _⟩ => rfl | ⟨1, _⟩ => rfl)
  have e3 : idx_main_v28 (idx_main_v29 (ix2 n k)) = ix1 k := funext fun a => Fin.ext (by
    match a with | ⟨0, _⟩ => rfl)
  simp only [e1, e2, e3]
  rfl

/-- The second hidden layer at (n, k) is the second layer of the first layer of row n. -/
theorem hidden1 (n : Fin 1000000) (k : Fin 128) :
    val_main_v36 (F := Ideal) x0 x1 x2 x3 x4 x5 x6 (ix2 n k)
      = Cert.RowMlp.layer1 x5 x6 (Cert.RowMlp.layer0 x3 x4 (row x0 x1 x2 n)) k := by
  rw [val_main_v36_apply, val_main_call1_v4_apply, val_main_call1_v3_apply, val_main_cst_7_apply, val_main_call1_v2_apply,
    val_main_call1_v1_apply, val_main_call1_v0_apply, val_main_cst_6_apply, val_main_v35_apply, val_main_v32_apply,
    val_main_v34_apply, val_main_v33_apply]
  have e1 : ∀ k' : Fin 128, lidx_main_v32 (ix2 n k) k' = ix2 n k' := fun k' => funext fun a => Fin.ext (by
    match a with | ⟨0, _⟩ => rfl | ⟨1, _⟩ => rfl)
  have e2 : ∀ k' : Fin 128, ridx_main_v32 (ix2 n k) k' = ix2 k' k := fun k' => funext fun a => Fin.ext (by
    match a with | ⟨0, _⟩ => rfl | ⟨1, _⟩ => rfl)
  have e3 : idx_main_v33 (idx_main_v34 (ix2 n k)) = ix1 k := funext fun a => Fin.ext (by
    match a with | ⟨0, _⟩ => rfl)
  simp only [e1, e2, e3, hidden0 x0 x1 x2 x3 x4 n]
  rfl

/-- The result at (n, 0) is the network's output for row n: the spelt-out quotient 1 / (1 + exp (−y)) is the
    logistic function, the word of 1.0 being the number one. -/
theorem result_row (n : Fin 1000000) :
    val_main_v46 (F := Ideal) x0 x1 x2 x3 x4 x5 x6 x7 x8 (ix2 n (0 : Fin 1))
      = Cert.RowMlp.rowOut x3 x4 x5 x6 x7 x8 (row x0 x1 x2 n) := by
  rw [val_main_v46_apply, val_main_v45_apply, val_main_cst_9_apply, val_main_v44_apply, val_main_v43_apply,
    val_main_cst_8_apply, val_main_v42_apply, val_main_v41_apply, val_main_v40_apply, val_main_v37_apply,
    val_main_v39_apply, val_main_v38_apply]
  have e1 : ∀ k' : Fin 128, lidx_main_v37 (ix2 n (0 : Fin 1)) k' = ix2 n k' := fun k' => funext fun a => Fin.ext (by
    match a with | ⟨0, _⟩ => rfl | ⟨1, _⟩ => rfl)
  have e2 : ∀ k' : Fin 128, ridx_main_v37 (ix2 n (0 : Fin 1)) k' = ix2 k' (0 : Fin 1) := fun k' => funext fun a => Fin.ext (by
    match a with | ⟨0, _⟩ => rfl | ⟨1, _⟩ => rfl)
  have e3 : idx_main_v38 (idx_main_v39 (ix2 n (0 : Fin 1))) = ix1 (0 : Fin 1) := funext fun a => Fin.ext (by
    match a with | ⟨0, _⟩ => rfl)
  simp only [e1, e2, e3, hidden1 x0 x1 x2 x3 x4 x5 x6 n]
  unfold Cert.RowMlp.rowOut Cert.RowMlp.head Ideal.logistic
  show Ideal.div Cert.RowMlp.hi (Cert.RowMlp.hi + Ideal.exp (-(_))) = Ideal.div 1 (1 + Ideal.exp (-(_)))
  rw [Cert.RowMlp.hi_eq_one]
  rfl

end Cert.ReferenceIdeal.RefRow

end
-- ==== Proof.IndexWord.lean ====
/-
  The integer frame index, as a 32-bit word.

  The frame index of a query is the embedding coordinate rounded toward zero and clamped to the signed
  32-bit range. Two facts about that word are all the equivalence needs:

  * a word whose signed value lies in [0, 6571] is left unchanged by the signed clamp
    `min 6571 (max 0 ·)` (`clamp_word_id`);
  * the word of a non-negative extended real has a non-negative signed value (`fptosi_nonneg`):
    rounding toward zero and clamping keep a non-negative number non-negative, and a natural number
    below 2^31 is its own signed reading.
-/
import Idealize.ShloMosaic.PureOps.Ideal
import Idealize.ShloMosaic.Lib.Affine
import Idealize.ShloMosaic.Lib.StableHlo.Predicate

namespace Cert.IndexWord

open Idealize.ShloMosaic

/-- The signed clamp into [0, 6571] fixes every word already inside that range. -/
theorem clamp_word_id (w : BitVec 32) (h0 : 0 ≤ w.toInt) (h1 : w.toInt ≤ 6571) :
    IntOp.minsi 6571#32 (IntOp.maxsi 0#32 w) = w := by
  have e0 : IntOp.maxsi 0#32 w = w := by
    unfold IntOp.maxsi
    rw [if_neg]
    rw [BitVec.slt_iff_toInt_lt]
    have : (0#32 : BitVec 32).toInt = 0 := by decide
    omega
  rw [e0]
  unfold IntOp.minsi
  rw [if_neg]
  rw [BitVec.slt_iff_toInt_lt]
  have : (6571#32 : BitVec 32).toInt = 6571 := by decide
  omega

/-- Rounding toward zero and clamping to the signed 32-bit range sends a non-negative extended real to a word
    with a non-negative signed value. -/
theorem fptosi_nonneg (x : EReal) (hx : 0 ≤ x) : 0 ≤ (Ideal.fptosi 32 x).toInt := by
  unfold Ideal.fptosi
  -- the clamped integer is a natural number below 2^31
  obtain ⟨n, hn, hlt⟩ : ∃ n : ℕ, Ideal.toIntClamped (-((2 ^ (32 - 1) : ℕ) : ℤ)) (((2 ^ (32 - 1) : ℕ) : ℤ) - 1) x = (n : ℤ) ∧ n < 2 ^ 31 := by
    induction x using EReal.rec with
    | bot => exact absurd hx (by simp)
    | top => exact ⟨2 ^ 31 - 1, by rw [Ideal.toIntClamped_top]; norm_num, by norm_num⟩
    | coe r =>
      have hr : (0 : ℝ) ≤ r := by exact_mod_cast hx
      have hf : (0 : ℤ) ≤ ⌊r⌋ := Int.floor_nonneg.mpr hr
      rw [Ideal.toIntClamped_coe, if_pos hr]
      generalize ⌊r⌋ = z at hf ⊢
      refine ⟨(min ((((2 ^ (32 - 1) : ℕ) : ℤ)) - 1) z).toNat, ?_, ?_⟩
      · have hm : (0 : ℤ) ≤ min ((((2 ^ (32 - 1) : ℕ) : ℤ)) - 1) z := le_min (by norm_num) hf
        rw [Int.toNat_of_nonneg hm]
        exact max_eq_right (le_trans (by norm_num) hm)
      · have hle : min ((((2 ^ (32 - 1) : ℕ) : ℤ)) - 1) z ≤ 2 ^ 31 - 1 := le_trans (min_le_left _ _) (by norm_num)
        have hm : (0 : ℤ) ≤ min ((((2 ^ (32 - 1) : ℕ) : ℤ)) - 1) z := le_min (by norm_num) hf
        omega
  rw [hn, BitVec.ofInt_natCast, StableHlo.Predicate.toInt_ofNat_small n hlt]
  exact Int.natCast_nonneg n

end Cert.IndexWord
-- ==== Proof.PreFacts.lean ====
/-
  What the precondition says about the frame index.

  The precondition is a conjunction of whole-array tests. Two of them speak of the embedding coordinate
  `e` of each query: every `e` is at least zero, and the integer part of every `e` (rounded toward zero,
  as a signed 32-bit word) is at most 6571, the last row of the table it indexes. Read at one query, they
  give the one fact the equivalence needs: the frame index of every query is a word whose signed value
  lies in [0, 6571] (the lower bound because rounding a non-negative number toward zero cannot make it
  negative).
-/
import proofs.«410066_j489626272140_4_alg».proof.Pre_finite_inputs
import proofs.«410066_j489626272140_4_alg».proof.Proof.IndexWord
import Idealize.ShloMosaic.Lib.ReduceAll
import Idealize.ShloMosaic.Lib.Affine
import Idealize.ShloMosaic.Lib.ValueIdx
import Idealize.ShloMosaic.Lib.StableHlo.Predicate
import Idealize.ShloMosaic.PureOps.Ideal.Laws

namespace Cert.PreFacts

open Idealize.ShloMosaic Cert.Pre_finite_inputs

variable [hP : Cert.Pre_finite_inputs.Facts]

/-- The scalar shape has one index. -/
instance : Subsingleton S_.Idx := ⟨fun a b => funext fun d => d.elim0⟩

/-- Under the precondition the frame index of query `n` is a word in [0, 6571]. -/
theorem index_in_range (a0 : FVec Ideal S1000000x2 .f32) (a1 : FVec Ideal S1000000 .f32) (a2 : FVec Ideal S6572x32 .f32)
    (a3 : FVec Ideal S34x128 .f32) (a4 : FVec Ideal S128 .f32) (a5 : FVec Ideal S128x128 .f32) (a6 : FVec Ideal S128 .f32)
    (a7 : FVec Ideal S128x1 .f32) (a8 : FVec Ideal S1 .f32)
    (h : fn (F := Ideal) a0 a1 a2 a3 a4 a5 a6 a7 a8 = fun _ => 1#1) (n : S1000000.Idx) :
    0 ≤ (Ideal.fptosi 32 (a1 n)).toInt ∧ (Ideal.fptosi 32 (a1 n)).toInt ≤ 6571 := by
  -- the conjunction at its one index; its last two conjuncts are the two tests of the coordinate
  have h0 := congrFun h ValueIdx.ix0
  dsimp only [fn, fn_part1, fn_part2, fn_part3] at h0
  obtain ⟨h1, hle⟩ := IntOp.andi_eq_one.1 h0
  obtain ⟨-, hge⟩ := IntOp.andi_eq_one.1 h1
  clear h0 h1 h
  -- a whole-array "all" that holds, holds at query n
  have ege := Host.reduce_andi_all _ _ _ _ _ hge n
  have ele := Host.reduce_andi_all _ _ _ _ _ hle n
  clear hge hle
  have x0 : (0 : EReal) ≤ a1 n := by
    have := ege
    simp only [cmpf, broadcastInDim, constant, Ideal.cmpf_def, Ideal.cmp, Ideal.ofBits_def, Ideal.ofBits_zero_f32,
      StableHlo.Predicate.ofBool_eq_one_iff, decide_eq_true_eq] at this
    exact this
  have x1 : (Ideal.fptosi 32 (a1 n)).toInt ≤ 6571 := by
    have := IntOp.cmpi_sle.1 (show IntOp.cmpi .sle (Ideal.fptosi 32 (a1 n)) 6571#32 = 1#1 from ele)
    have e : (6571#32 : BitVec 32).toInt = 6571 := by decide
    omega
  exact ⟨Cert.IndexWord.fptosi_nonneg _ x0, x1⟩

end Cert.PreFacts
-- ==== Proof.Bridge.lean ====
/-
  The two programs meet.

  Both programs compute, for every query n, the network's output for row n of an array of rows (the query's two
  coordinates followed by its thirty-two interpolated embedding features). They differ in three ways, none of which
  changes a value on the extended reals:

  * the tiled program clamps the integer frame index into the table's rows before using it. Under the precondition
    the index of every query already lies in [0, 6571] (the embedding coordinate is non-negative and its integer
    part is a row of the table), so the clamp is the identity and the two arrays of rows are one array;
  * the tiled program pads the rows to a whole number of tiles, runs the network tile by tile and cuts the padding
    off again: the rows below 1000000 never meet the padding;
  * the tiled program contracts the two coordinates and the thirty-two features with their own rows of the first
    layer's weights and adds the two results, where the plain program contracts all thirty-four inputs at once: a
    finite sum split after its second term.

  The frames of the two tiled programs are the generated ones; the plain program's frame is its generated run with
  the result dropped; there is nothing to preserve (the idealization rewrote no operation).
-/
import proofs.«410066_j489626272140_4_alg».proof.Defs
import proofs.«410066_j489626272140_4_alg».proof.Proof.Gen.Kernel.Frame
import proofs.«410066_j489626272140_4_alg».proof.Proof.Gen.KernelIdeal.Frame
import proofs.«410066_j489626272140_4_alg».proof.Proof.Gen.ReferenceIdeal.Run
import proofs.«410066_j489626272140_4_alg».proof.Proof.Gen.ReferenceIdeal.Read
import proofs.«410066_j489626272140_4_alg».proof.Proof.Gen.Pre_finite_inputs
import proofs.«410066_j489626272140_4_alg».proof.Proof.KerValue
import proofs.«410066_j489626272140_4_alg».proof.Proof.RefRow
import proofs.«410066_j489626272140_4_alg».proof.Proof.PreFacts
import proofs.«410066_j489626272140_4_alg».proof.Proof.IndexWord

noncomputable section

namespace Cert.Bridge

open Idealize.ShloMosaic Idealize.ShloMosaic.TcCoe Idealize.SL.Sem Idealize.ShloMosaic.ValueIdx

section Tiled

open Cert.KernelIdeal Cert.KernelIdeal.Gen

variable (m : (ℓ : Loc nD τ sig) → Buf (Elt Ideal) ℓ) (ρ : Dev nD → PrngReg)

/-- The tiled program's run with its result named: the result buffer ends at what the lines after the region leave
    in it, and every argument ends as launched (an argument no window stages is untouched by the lines after the
    region; the two the region stages whole are never written back). -/
theorem kernel_run : θ_run (defs (F := Ideal)) (onTc (τ := τ) (main (F := Ideal))) ⟨m, fun _ => 0, ρ⟩ (fun r => ∀ c : Dev nD,
      r.2.mem ((c.tc : Thread nD τ).loc main_v35) = Pipeline.afterTail₀ cfgs (dats m) 0 (V0 m) [hostOps1] c main_v35
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).2 main_v35 (Pipeline.mem_restRefs_of main_v35 (by decide) (by decide)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      ((h c).1 4).trans (((dats m 0 c).arrAt_in 4 rfl _).trans ((A_eq m c 4).trans (V_main_arg5 m c))),
      (((h c).2 main_arg6 (Pipeline.mem_restRefs_of main_arg6 (by decide) (by decide))).trans (W_main_arg6 m (dats m) c)),
      ((h c).1 6).trans (((dats m 0 c).arrAt_in 6 rfl _).trans ((A_eq m c 6).trans (V_main_arg7 m c))),
      (((h c).2 main_arg8 (Pipeline.mem_restRefs_of main_arg8 (by decide) (by decide))).trans (W_main_arg8 m (dats m) c))⟩)
    (run_main m ρ)

/-- Where every query's frame index lies in [0, 6571], the clamped index is the index. -/
theorem clamped_eq (e : FVec Ideal S1000000 .f32)
    (h : ∀ n : S1000000.Idx, 0 ≤ (Ideal.fptosi 32 (e n)).toInt ∧ (Ideal.fptosi 32 (e n)).toInt ≤ 6571) :
    KerHost.clampedIdx (F := Ideal) e = fptosi 32 e := by
  funext n
  show IntOp.minsi 6571#32 (IntOp.maxsi 0#32 (Ideal.fptosi 32 (e n))) = Ideal.fptosi 32 (e n)
  exact Cert.IndexWord.clamp_word_id _ (h n).1 (h n).2

end Tiled

/-- The plain program's array of rows is the tiled program's function of the unclamped frame index: the same
    operations in the same order. -/
theorem ref_rows (x0 : FVec Ideal Cert.KernelIdeal.S1000000x2 .f32) (x1 : FVec Ideal Cert.KernelIdeal.S1000000 .f32)
    (x2 : FVec Ideal Cert.KernelIdeal.S6572x32 .f32) :
    Cert.ReferenceIdeal.Read.val_main_v26 (F := Ideal) x0 x1 x2
      = Cert.KernelIdeal.KerHost.auxOf (F := Ideal) x0 x1 x2 (fptosi 32 x1) := rfl

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with the same result: entry (n, 0) of either is the
    network's output for row n of the one array of rows. -/
theorem algebraic : Cert.algebraic_KernelIdeal_ReferenceIdeal := by
  intro m ρ m' ρ' hpre hagree
  refine ⟨fun c => Pipeline.afterTail₀ Cert.KernelIdeal.cfgs (Cert.KernelIdeal.Gen.dats m) 0 (Cert.KernelIdeal.Gen.V0 m)
    [Cert.KernelIdeal.Gen.hostOps1] c Cert.KernelIdeal.main_v35, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v46_eq]
  obtain ⟨a0, a1, a2, a3, a4, a5, a6, a7, a8⟩ := hagree c
  rw [a0, a1, a2, a3, a4, a5, a6, a7, a8]
  funext (i : Cert.KernelIdeal.S1000000x1.Idx)
  obtain ⟨n, q, rfl⟩ : ∃ (n : Fin 1000000) (q : Fin 1), i = ix2 n q := ⟨i 0, i 1, eq_ix2 (n0 := 1000000) (n1 := 1) i⟩
  obtain rfl : q = 0 := Subsingleton.elim _ _
  rw [Cert.ReferenceIdeal.RefRow.result_row]
  refine Eq.trans ?_ (Cert.KernelIdeal.KerValue.result_row m c n).symm
  rw [clamped_eq (m ((c.tc : Thread Cert.KernelIdeal.nD Cert.KernelIdeal.τ).loc Cert.KernelIdeal.main_arg1)) (fun k => Cert.PreFacts.index_in_range _ _ _ _ _ _ _ _ _ (hpre c) k)]
  -- the plain program's array of rows, as a function, is the tiled program's at the unclamped index
  unfold Cert.ReferenceIdeal.RefRow.row
  rw [ref_rows]

end Cert.Bridge

end
-- ==== Proof.lean ====
/-
  A per-point network over interpolated frame embeddings: the tiled program against the plain one.

  For each of 1000000 queries the programs take two coordinates x and an embedding coordinate e, look up rows
  ⌊e⌋ and min(⌊e⌋ + 1, 6571) of a 6572 × 32 table, interpolate between them by the fractional part of e, and send
  the thirty-four numbers (x, then the interpolated features) through a 34 → 128 → 128 → 1 network whose hidden
  layers are clamped into [0, 1] and whose output passes through the logistic function.

  The statement is made under the precondition that every float input is finite, that every e is at least zero,
  and that the integer part of every e is at most 6571 (a row of the table). Under it the tiled program's extra
  clamp of the frame index is the identity, so both programs form the same array of rows; after that they differ
  only in arrangement: tiles of 8192 rows over a padded array against one whole array, and the first layer's
  contraction split as 2 + 32 against 34 at once. On the extended reals a finite sum may be split anywhere, so the
  results agree entry by entry with no use of finiteness.

  The modules: RowMlp (the network on one row, and the split of the first layer's sum), LibContract (a plain matrix
  product's contraction as a sum over the shared axis: general), IndexWord and PreFacts
  (the frame index as a word; what the precondition says of it), RefRow (the plain program at a row), KerHost (what
  the tiled program's region finds in its arrays), PayRow (a tile's arithmetic at a row), KerValue (the region's
  output array and the returned result), Bridge (the two meet; the five claims).
-/
import proofs.«410066_j489626272140_4_alg».proof.Defs
import proofs.«410066_j489626272140_4_alg».proof.Proof.Gen.Kernel
import proofs.«410066_j489626272140_4_alg».proof.Proof.Gen.Kernel.Skeleton
import proofs.«410066_j489626272140_4_alg».proof.Proof.Gen.Kernel.Launch
import proofs.«410066_j489626272140_4_alg».proof.Proof.Gen.Kernel.Points
import proofs.«410066_j489626272140_4_alg».proof.Proof.Gen.Kernel.Frame
import proofs.«410066_j489626272140_4_alg».proof.Proof.Gen.KernelIdeal
import proofs.«410066_j489626272140_4_alg».proof.Proof.Gen.KernelIdeal.Skeleton
import proofs.«410066_j489626272140_4_alg».proof.Proof.Gen.KernelIdeal.Launch
import proofs.«410066_j489626272140_4_alg».proof.Proof.Gen.KernelIdeal.Points
import proofs.«410066_j489626272140_4_alg».proof.Proof.Gen.KernelIdeal.Frame
import proofs.«410066_j489626272140_4_alg».proof.Proof.Gen.ReferenceIdeal
import proofs.«410066_j489626272140_4_alg».proof.Proof.Gen.Pre_finite_inputs
import proofs.«410066_j489626272140_4_alg».proof.Proof.Gen.ReferenceIdeal.Run
import proofs.«410066_j489626272140_4_alg».proof.Proof.Gen.ReferenceIdeal.Read
import proofs.«410066_j489626272140_4_alg».proof.Proof.Bridge
import Idealize.ShloMosaic.Adequacy
import Idealize.ShloMosaic.Init

noncomputable section

namespace Cert.Proof

open Idealize.ShloMosaic Idealize.SL.Sem Cert.Kernel

/-- The five claims, under the witnesses of the programs' stated side conditions. -/
theorem claim : Cert.Claim := ⟨Cert.Kernel.Gen.facts, Cert.KernelIdeal.Gen.facts, Cert.ReferenceIdeal.Gen.facts, Cert.Pre_finite_inputs.Gen.facts,
  Cert.Bridge.frame_k, Cert.Bridge.frame_ki, Cert.Bridge.frame_ri, Cert.Bridge.preserves, Cert.Bridge.algebraic⟩

end Cert.Proof

end
